-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x256 : Shape := ⟨2, ![256, 256]⟩
abbrev S200000 : Shape := ⟨1, ![200000]⟩
abbrev S512x256 : Shape := ⟨2, ![512, 256]⟩
abbrev S512 : Shape := ⟨1, ![512]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_

variable [Facts]

def fn_part4 {F : FTy → Type} [FloatOps F] (main_v63 : IVec S_ 1) (main_v65 : IVec S200000 1) (main_v67 : IVec S200000 1) : IVec S_ 1 :=
  let main_v68 : IVec S200000 1 := andi main_v65 main_v67
  let main_c_26 : IVec S_ 1 := constantI S_ 1 1#1
  let main_v69 : IVec S_ 1 := (fun x v => Host.reduce IntOp.andi x v reducesTo_S200000_S_d0 h_S_) main_v68 main_c_26
  let main_v70 : IVec S_ 1 := andi main_v63 main_v69
  main_v70

def fn_part3 {F : FTy → Type} [FloatOps F] (main_arg2 : IVec S200000 32) (main_arg12 : FVec F S512 .f32) (main_arg13 : FVec F S512 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_c_24 : IVec S_ 32 := constantI S_ 32 0#32
  let main_v64 : IVec S200000 32 := broadcastInDim S200000 ![] bcast_S_S200000 main_c_24
  let main_v65 : IVec S200000 1 := cmpi .sge main_arg2 main_v64
  let main_c_25 : IVec S_ 32 := constantI S_ 32 256#32
  let main_v66 : IVec S200000 32 := broadcastInDim S200000 ![] bcast_S_S200000 main_c_25
  let main_v67 : IVec S200000 1 := cmpi .slt main_arg2 main_v66
  fn_part4 (F := F) main_v63 main_v65 main_v67

def fn_part2 {F : FTy → Type} [FloatOps F] (main_arg2 : IVec S200000 32) (main_arg8 : FVec F S256x256 .f32) (main_arg9 : FVec F S256 .f32) (main_arg10 : FVec F S256 .f32) (main_arg11 : FVec F S512x256 .f32) (main_arg12 : FVec F S512 .f32) (main_arg13 : FVec F S512 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg2 main_arg12 main_arg13 main_v48 main_v49 main_v50

def fn_part1 {F : FTy → Type} [FloatOps F] (main_arg2 : IVec S200000 32) (main_arg5 : FVec F S512 .f32) (main_arg6 : FVec F S256x256 .f32) (main_arg7 : FVec F S256 .f32) (main_arg8 : FVec F S256x256 .f32) (main_arg9 : FVec F S256 .f32) (main_arg10 : FVec F S256 .f32) (main_arg11 : FVec F S512x256 .f32) (main_arg12 : FVec F S512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S200000x256 .f32) (main_arg1 : FVec F S256x256 .f32) (main_arg2 : IVec S200000 32) (main_arg3 : FVec F S512x256 .f32) (main_arg4 : FVec F S512 .f32) (main_arg5 : FVec F S512 .f32) (main_arg6 : FVec F S256x256 .f32) (main_arg7 : FVec F S256 .f32) (main_arg8 : FVec F S256x256 .f32) (main_arg9 : FVec F S256 .f32) (main_arg10 : FVec F S256 .f32) (main_arg11 : FVec F S512x256 .f32) (main_arg12 : FVec F S512 .f32) (main_arg13 : FVec F S512 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_v13 main_v16
-- ==== Kernel.lean ====
abbrev S200000x256 : Shape := ⟨2, ![200000, 256]⟩
abbrev S256x256 : Shape := ⟨2, ![256, 256]⟩
abbrev S200000 : Shape := ⟨1, ![200000]⟩
abbrev S512x256 : Shape := ⟨2, ![512, 256]⟩
abbrev S512 : Shape := ⟨1, ![512]⟩
abbrev S256 : Shape := ⟨1, ![256]⟩
abbrev S_ : Shape := ⟨0, ![]⟩
abbrev S256x1 : Shape := ⟨2, ![256, 1]⟩
abbrev S512x1 : Shape := ⟨2, ![512, 1]⟩
abbrev S256x512 : Shape := ⟨2, ![256, 512]⟩
abbrev S1x512 : Shape := ⟨2, ![1, 512]⟩
abbrev S200000x1 : Shape := ⟨2, ![200000, 1]⟩
abbrev S200000x512 : Shape := ⟨2, ![200000, 512]⟩
abbrev S4096x256 : Shape := ⟨2, ![4096, 256]⟩
abbrev S4096x1 : Shape := ⟨2, ![4096, 1]⟩
abbrev S4096x512 : Shape := ⟨2, ![4096, 512]⟩
abbrev S4096 : Shape := ⟨1, ![4096]⟩
abbrev S1x256 : Shape := ⟨2, ![1, 256]⟩

abbrev nBuf : Space → Nat
  | .hbm => 59
  | .vmem => 12
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S200000, .i32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S512x256, .f32⟩
  | .hbm, ⟨12, _⟩ => ⟨S512, .f32⟩
  | .hbm, ⟨13, _⟩ => ⟨S512, .f32⟩
  | .hbm, ⟨14, _⟩ => ⟨S256x256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256x1, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .bf16⟩
  | .hbm, ⟨34, _⟩ => ⟨S512x256, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512x1, .f32⟩
  | .hbm, ⟨40, _⟩ => ⟨S512x256, .f32⟩
  | .hbm, ⟨41, _⟩ => ⟨S512x256, .f32⟩
  | .hbm, ⟨42, _⟩ => ⟨S256x512, .f32⟩
  | .hbm, ⟨43, _⟩ => ⟨S256x512, .bf16⟩
  | .hbm, ⟨44, _⟩ => ⟨S512x256, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512x1, .f32⟩
  | .hbm, ⟨50, _⟩ => ⟨S512x256, .f32⟩
  | .hbm, ⟨51, _⟩ => ⟨S512x256, .f32⟩
  | .hbm, ⟨52, _⟩ => ⟨S256x512, .f32⟩
  | .hbm, ⟨53, _⟩ => ⟨S256x512, .f32⟩
  | .hbm, ⟨54, _⟩ => ⟨S1x512, .f32⟩
  | .hbm, ⟨55, _⟩ => ⟨S256x512, .f32⟩
  | .hbm, ⟨56, _⟩ => ⟨S256x512, .f32⟩
  | .hbm, ⟨57, _⟩ => ⟨S200000x1, .i32⟩
  | .hbm, ⟨58, _⟩ => ⟨S200000x512, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S256x512, .f32⟩
  | .local _ .vmem, ⟨5, _⟩ => ⟨S256x256, .bf16⟩
  | .local _ .vmem, ⟨6, _⟩ => ⟨S256x256, .bf16⟩
  | .local _ .vmem, ⟨7, _⟩ => ⟨S256, .f32⟩
  | .local _ .vmem, ⟨8, _⟩ => ⟨S256x512, .bf16⟩
  | .local _ .vmem, ⟨9, _⟩ => ⟨S512, .f32⟩
  | .local _ .vmem, ⟨10, _⟩ => ⟨S4096x512, .f32⟩
  | .local _ .vmem, ⟨11, _⟩ => ⟨S4096x512, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  bitsLt_bf16_f32 : FTy.bits .bf16 < FTy.bits .f32
  reducesTo_S512x256_S512_d1 : S512x256.ReducesTo [1] S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S512x256_S256x512_1_0 : S512x256.Transposes [1, 0] S256x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  shapeCasts_S200000_S200000x1 : S200000.ShapeCasts S200000x1
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4096x256_S4096 : S4096x256.Reduces [1] S4096
  shapeCasts_S4096_S4096x1 : S4096.ShapeCasts S4096x1
  broadcasts_S4096x1_S4096x256 : S4096x1.Broadcasts S4096x256
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  iota_S4096x256_d1_w32 : S4096x256.Iotas .tc 32 [1]
  natLt_1_32 : 1 < 32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S4096x512_o0_0_S4096x256 : S4096x512.Slices ![0, 0] S4096x256
  slices_S4096x512_o0_256_S4096x256 : S4096x512.Slices ![0, 256] S4096x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S256x256_S256x512_S256x512_1_0_0_1_n_n_wf : DotDims.WF S256x256 S256x512 S256x512 [1] [0] [0] [1] [] []
  dot_S4096x256_S256x256_S4096x256_1_0_0_1_n_n_wf : DotDims.WF S4096x256 S256x256 S4096x256 [1] [0] [0] [1] [] []
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S200000x256.size a
  hwx0_0 : ∀ i : grid0.Coords, EltTy.bits .f32 = 32 ∨ (Rect.unit (s := S200000x256) (fun a => cc0_transform_0 i a * S4096x256.size a) (fun a => (Pipeline.Clip.of (cc0_transform_0 i a) (S4096x256.size a) (S200000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S200000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1.size a < S200000x1.size a
  hwx0_1 : ∀ i : grid0.Coords, EltTy.bits .i32 = 32 ∨ (Rect.unit (s := S200000x1) (fun a => cc0_transform_1 i a * S4096x1.size a) (fun a => (Pipeline.Clip.of (cc0_transform_1 i a) (S4096x1.size a) (S200000x1.size a)).extent (S4096x1.size a)) fun a => Pipeline.Clip.inb (Pipeline.Clip.ok_of (hstart0_1 i a))).WholeWords (EltTy.packing .i32)
  hwxs0_1 : ∀ i : grid0.Coords, EltTy.bits .i32 = 32 ∨ (Rect.unit (s := S4096x1) (fun _ => 0) (fun a => (Pipeline.Clip.of (cc0_transform_1 i a) (S4096x1.size a) (S200000x1.size a)).extent (S4096x1.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S4096x512.size a < S200000x512.size a
  hwx0_8 : ∀ i : grid0.Coords, EltTy.bits .f32 = 32 ∨ (Rect.unit (s := S200000x512) (fun a => cc0_transform_8 i a * S4096x512.size a) (fun a => (Pipeline.Clip.of (cc0_transform_8 i a) (S4096x512.size a) (S200000x512.size a)).extent (S4096x512.size a)) fun a => Pipeline.Clip.inb (Pipeline.Clip.ok_of (hstart0_8 i a))).WholeWords (EltTy.packing .f32)
  hwxs0_8 : ∀ i : grid0.Coords, EltTy.bits .f32 = 32 ∨ (Rect.unit (s := S4096x512) (fun _ => 0) (fun a => (Pipeline.Clip.of (cc0_transform_8 i a) (S4096x512.size a) (S200000x512.size a)).extent (S4096x512.size a)) fun a => (Nat.zero_add _).trans_le (Pipeline.Clip.extent_le (Pipeline.Clip.ok_of (hstart0_8 i a)))).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v31) S4096x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v30) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v32) S4096x512.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x256 : Shape := ⟨2, ![200000, 256]⟩
abbrev S256x256 : Shape := ⟨2, ![256, 256]⟩
abbrev S200000 : Shape := ⟨1, ![200000]⟩
abbrev S512x256 : Shape := ⟨2, ![512, 256]⟩
abbrev S512 : Shape := ⟨1, ![512]⟩
abbrev S256 : Shape := ⟨1, ![256]⟩
abbrev S_ : Shape := ⟨0, ![]⟩
abbrev S512x1 : Shape := ⟨2, ![512, 1]⟩
abbrev S256x512 : Shape := ⟨2, ![256, 512]⟩
abbrev S1x512 : Shape := ⟨2, ![1, 512]⟩
abbrev S256x1 : Shape := ⟨2, ![256, 1]⟩
abbrev S200000x1 : Shape := ⟨2, ![200000, 1]⟩
abbrev S1x256 : Shape := ⟨2, ![1, 256]⟩
abbrev S200000x512 : Shape := ⟨2, ![200000, 512]⟩

abbrev nBuf : Space → Nat
  | .hbm => 117
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S200000, .i32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S512x256, .f32⟩
  | .hbm, ⟨12, _⟩ => ⟨S512, .f32⟩
  | .hbm, ⟨13, _⟩ => ⟨S512, .f32⟩
  | .hbm, ⟨14, _⟩ => ⟨S512x256, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x1, .f32⟩
  | .hbm, ⟨20, _⟩ => ⟨S512x256, .f32⟩
  | .hbm, ⟨21, _⟩ => ⟨S512x256, .f32⟩
  | .hbm, ⟨22, _⟩ => ⟨S256x512, .f32⟩
  | .hbm, ⟨23, _⟩ => ⟨S256x512, .f32⟩
  | .hbm, ⟨24, _⟩ => ⟨S1x512, .f32⟩
  | .hbm, ⟨25, _⟩ => ⟨S256x512, .f32⟩
  | .hbm, ⟨26, _⟩ => ⟨S256x512, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S200000x256, .f32⟩
  | .hbm, ⟨42, _⟩ => ⟨S_, .f32⟩
  | .hbm, ⟨43, _⟩ => ⟨S200000, .f32⟩
  | .hbm, ⟨44, _⟩ => ⟨S200000x1, .f32⟩
  | .hbm, ⟨45, _⟩ => ⟨S_, .f32⟩
  | .hbm, ⟨46, _⟩ => ⟨S200000x1, .f32⟩
  | .hbm, ⟨47, _⟩ => ⟨S200000x1, .f32⟩
  | .hbm, ⟨48, _⟩ => ⟨S200000x256, .f32⟩
  | .hbm, ⟨49, _⟩ => ⟨S200000x256, .f32⟩
  | .hbm, ⟨50, _⟩ => ⟨S200000x256, .f32⟩
  | .hbm, ⟨51, _⟩ => ⟨S_, .f32⟩
  | .hbm, ⟨52, _⟩ => ⟨S200000, .f32⟩
  | .hbm, ⟨53, _⟩ => ⟨S200000x1, .f32⟩
  | .hbm, ⟨54, _⟩ => ⟨S_, .f32⟩
  | .hbm, ⟨55, _⟩ => ⟨S200000x1, .f32⟩
  | .hbm, ⟨56, _⟩ => ⟨S200000x1, .f32⟩
  | .hbm, ⟨57, _⟩ => ⟨S200000x256, .f32⟩
  | .hbm, ⟨58, _⟩ => ⟨S200000x256, .f32⟩
  | .hbm, ⟨59, _⟩ => ⟨S_, .f32⟩
  | .hbm, ⟨60, _⟩ => ⟨S200000x1, .f32⟩
  | .hbm, ⟨61, _⟩ => ⟨S200000x1, .f32⟩
  | .hbm, ⟨62, _⟩ => ⟨S200000x1, .f32⟩
  | .hbm, ⟨63, _⟩ => ⟨S200000x256, .f32⟩
  | .hbm, ⟨64, _⟩ => ⟨S200000x256, .f32⟩
  | .hbm, ⟨65, _⟩ => ⟨S_, .i32⟩
  | .hbm, ⟨66, _⟩ => ⟨S200000, .i32⟩
  | .hbm, ⟨67, _⟩ => ⟨S200000, .i1⟩
  | .hbm, ⟨68, _⟩ => ⟨S_, .i32⟩
  | .hbm, ⟨69, _⟩ => ⟨S200000, .i32⟩
  | .hbm, ⟨70, _⟩ => ⟨S200000, .i32⟩
  | .hbm, ⟨71, _⟩ => ⟨S200000, .i32⟩
  | .hbm, ⟨72, _⟩ => ⟨S200000x1, .i32⟩
  | .hbm, ⟨73, _⟩ => ⟨S200000x256, .f32⟩
  | .hbm, ⟨74, _⟩ => ⟨S200000x256, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x256, .f32⟩
  | .hbm, ⟨84, _⟩ => ⟨S200000x256, .f32⟩
  | .hbm, ⟨85, _⟩ => ⟨S_, .f32⟩
  | .hbm, ⟨86, _⟩ => ⟨S200000x256, .f32⟩
  | .hbm, ⟨87, _⟩ => ⟨S200000x256, .f32⟩
  | .hbm, ⟨88, _⟩ => ⟨S256x256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256x1, .f32⟩
  | .hbm, ⟨94, _⟩ => ⟨S256x256, .f32⟩
  | .hbm, ⟨95, _⟩ => ⟨S256x256, .f32⟩
  | .hbm, ⟨96, _⟩ => ⟨S256x256, .f32⟩
  | .hbm, ⟨97, _⟩ => ⟨S200000x256, .f32⟩
  | .hbm, ⟨98, _⟩ => ⟨S1x256, .f32⟩
  | .hbm, ⟨99, _⟩ => ⟨S200000x256, .f32⟩
  | .hbm, ⟨100, _⟩ => ⟨S200000x256, .f32⟩
  | .hbm, ⟨101, _⟩ => ⟨S_, .f32⟩
  | .hbm, ⟨102, _⟩ => ⟨S200000x256, .f32⟩
  | .hbm, ⟨103, _⟩ => ⟨S200000x256, .f32⟩
  | .hbm, ⟨104, _⟩ => ⟨S512x256, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x256, .f32⟩
  | .hbm, ⟨111, _⟩ => ⟨S512x256, .f32⟩
  | .hbm, ⟨112, _⟩ => ⟨S256x512, .f32⟩
  | .hbm, ⟨113, _⟩ => ⟨S200000x512, .f32⟩
  | .hbm, ⟨114, _⟩ => ⟨S1x512, .f32⟩
  | .hbm, ⟨115, _⟩ => ⟨S200000x512, .f32⟩
  | .hbm, ⟨116, _⟩ => ⟨S200000x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c : Ref sig .tc := ⟨.hbm, 65, rfl⟩
abbrev main_v39 : Ref sig .tc := ⟨.hbm, 66, rfl⟩
abbrev main_v40 : Ref sig .tc := ⟨.hbm, 67, rfl⟩
abbrev main_c_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call2_cst : Ref sig .tc := ⟨.hbm, 85, rfl⟩
abbrev main_call2_v0 : Ref sig .tc := ⟨.hbm, 86, rfl⟩
abbrev main_v55 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call4_cst : Ref sig .tc := ⟨.hbm, 101, rfl⟩
abbrev main_call4_v0 : Ref sig .tc := ⟨.hbm, 102, rfl⟩
abbrev main_v66 : Ref sig .tc := ⟨.hbm, 103, rfl⟩
abbrev main_call5_v0 : Ref sig .tc := ⟨.hbm, 104, rfl⟩
abbrev main_call5_cst : Ref sig .tc := ⟨.hbm, 105, rfl⟩
abbrev main_call5_v1 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S512x256_S256x512_1_0 : S512x256.Transposes [1, 0] S256x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  slices_S256x512_S256x256_0_0 : S256x512.Slices ![0, 0] S256x256
  bcast_S_S256x256 : S_.BroadcastsInDim S256x256 (![] : Fin 0 → Fin S256x256.rank)
  slices_S256x512_S256x256_0_256 : S256x512.Slices ![0, 256] S256x256
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  reducesTo_S200000x256_S200000_d1 : S200000x256.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S200000 : S_.BroadcastsInDim S200000 (![] : Fin 0 → Fin S200000.rank)
  bcast_S_S200000x256 : S_.BroadcastsInDim S200000x256 (![] : Fin 0 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S1x512_S200000x512_0_1 : S1x512.BroadcastsInDim S200000x512 (![0, 1] : Fin 2 → Fin S200000x512.rank)
  dot_S256x256_S256x512_S256x512_1_0_0_1_n_n_wf : DotDims.WF S256x256 S256x512 S256x512 [1] [0] [0] [1] [] []
  dot_S200000x256_S256x256_S200000x256_1_0_0_1_n_n_wf : DotDims.WF S200000x256 S256x256 S200000x256 [1] [0] [0] [1] [] []
  gather_S256x256_S200000x1_S200000x256_1_0_n_n_0_1_1256_wf : GatherDims.WF S256x256 S200000x1 S200000x256 [1] [0] [] [0] [] 1 ![1, 256]
  dot_S200000x256_S256x512_S200000x512_1_0_0_1_n_n_wf : DotDims.WF S200000x256 S256x512 S200000x512 [1] [0] [0] [1] [] []

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def gather_S256x256_S200000x1_S200000x256_1_0_n_n_0_1_1256 : GatherDims S256x256 S200000x1 S200000x256 where
  offsetDims := [1]
  collapsedSliceDims := [0]
  operandBatchingDims := []
  startIndicesBatchingDims := []
  startIndexMap := [0]
  indexVectorDim := 1
  sliceSizes := ![1, 256]
  wf := gather_S256x256_S200000x1_S200000x256_1_0_n_n_0_1_1256_wf
def dot_S200000x256_S256x512_S200000x512_1_0_0_1_n_n : DotDims S200000x256 S256x512 S200000x512 where
  lhsContracting := [1]
  rhsContracting := [0]
  lhsNonContracting := [0]
  rhsNonContracting := [1]
  lhsBatch := []
  rhsBatch := []
  wf := dot_S200000x256_S256x512_S200000x512_1_0_0_1_n_n_wf

class Facts : Prop extends Facts₀ where

variable [Facts]
-- ==== Proof.Spec.lean ====
/-
  One row of the network, over the extended reals, in the two arrangements the two programs compute.

  A row x (256 columns) is sent through a linear layer (weights given contraction index first),
  normalised over its 256 columns (mean and variance by division by 256, the variance shifted by a
  small positive constant), modulated by a per-graph pair (scale, shift) picked out of a 256-row table
  by the row's graph index, rectified, and sent through two more linear layers with bias, the first
  rectified.

  The two arrangements differ in exactly two places.
  * Normalisation: the product with the reciprocal square root of the shifted variance against the
    quotient by its square root. The shifted variance is positive (a mean of squares is not negative
    and the shift is positive), and on a positive extended real, finite or not, the two agree.
  * Picking the table row: a sum over all 256 rows against the indicator of the row's index, taken
    twice (the table, and the table minus itself), against reading the indexed row. Where the table
    is real the second sum vanishes and the first collapses to the indexed row, the index being in
    range.
  The weights are weight-normalised rows v a * (g a / |v a|); where v a is the zero row the quotient
  is infinite or junk but multiplies zero, so a weight-normalised matrix of real v, g is real.
-/
import Idealize.ShloMosaic.PureOps.Ideal
import Idealize.ShloMosaic.PureOps.Ideal.Laws
import Idealize.ShloMosaic.Lib.ValueIdx

noncomputable section

namespace Cert.Film

open Idealize.ShloMosaic

/-- The constants both programs carry, as the values their f32 words denote. -/
abbrev epsW : EReal := Ideal.ofBits .f32 0x3727C5AC#32
abbrev n256 : EReal := Ideal.ofBits .f32 0x43800000#32
abbrev oneW : EReal := Ideal.ofBits .f32 0x3F800000#32
abbrev zeroW : EReal := Ideal.ofBits .f32 0x00000000#32

/-- Mean over the 256 columns: the sum divided by 256. -/
def mean (h : Fin 256 → EReal) : EReal := Ideal.div (∑ c, h c) n256
/-- A column less the mean. -/
def cen (h : Fin 256 → EReal) (c : Fin 256) : EReal := h c - mean h
/-- The mean of the squared centred columns. -/
def var (h : Fin 256 → EReal) : EReal := mean (fun c => cen h c * cen h c)
/-- Normalisation as a product with the reciprocal square root. -/
def lnK (h : Fin 256 → EReal) (c : Fin 256) : EReal := cen h c * Ideal.rsqrt (var h + epsW)
/-- Normalisation as a quotient by the square root. -/
def lnR (h : Fin 256 → EReal) (c : Fin 256) : EReal := Ideal.div (cen h c) (Ideal.sqrt (var h + epsW))

/-- The indicator of "the index word id names table row g". -/
def oh (id : BitVec 32) (g : Fin 256) : EReal := if id = BitVec.ofNat 32 g.val then 1 else 0
/-- Picking row id of the table by two sums against the indicator: the table, and the table minus itself. -/
def gatherK (id : BitVec 32) (gb : Fin 256 → Fin 512 → EReal) (j : Fin 512) : EReal :=
  (∑ g, oh id g * gb g j) + (∑ g, oh id g * (gb g j - gb g j))

/-- Column c of the table's first half, and of its second half. -/
def lo (c : Fin 256) : Fin 512 := ⟨c.val, by omega⟩
def hi (c : Fin 256) : Fin 512 := ⟨256 + c.val, by omega⟩

/-- What follows the normalisation in both arrangements: modulate by (gam, bet), rectify, a linear layer with
    bias rectified, a linear layer with bias. Weights are indexed contraction index first. -/
def tail (hn gam bet : Fin 256 → EReal) (w2T : Fin 256 → Fin 256 → EReal) (b2 : Fin 256 → EReal)
    (w3T : Fin 256 → Fin 512 → EReal) (b3 : Fin 512 → EReal) (q : Fin 512) : EReal :=
  (∑ k, (max ((∑ k', (max (hn k' * gam k' + bet k') zeroW) * w2T k' k) + b2 k) zeroW) * w3T k q) + b3 q

/-- The row in the first arrangement (reciprocal square root; the table row by indicator sums). -/
def rowK (x : Fin 256 → EReal) (id : BitVec 32) (gb : Fin 256 → Fin 512 → EReal) (w1T : Fin 256 → Fin 256 → EReal)
    (w2T : Fin 256 → Fin 256 → EReal) (b2 : Fin 256 → EReal) (w3T : Fin 256 → Fin 512 → EReal) (b3 : Fin 512 → EReal) :
    Fin 512 → EReal :=
  tail (lnK (fun c => ∑ k, x k * w1T k c)) (fun c => gatherK id gb (lo c) + oneW) (fun c => gatherK id gb (hi c)) w2T b2 w3T b3

/-- The row in the second arrangement (quotient by the square root; the table row read at its index). -/
def rowR (x : Fin 256 → EReal) (idc : Fin 256) (gb : Fin 256 → Fin 512 → EReal) (w1T : Fin 256 → Fin 256 → EReal)
    (w2T : Fin 256 → Fin 256 → EReal) (b2 : Fin 256 → EReal) (w3T : Fin 256 → Fin 512 → EReal) (b3 : Fin 512 → EReal) :
    Fin 512 → EReal :=
  tail (lnR (fun c => ∑ k, x k * w1T k c)) (fun c => gb idc (lo c) + oneW) (fun c => gb idc (hi c)) w2T b2 w3T b3

/-! ## The constants as reals -/

private theorem n256_eq : n256 = ((256 : ℝ) : EReal) := by
  simp [Ideal.ofBits, Ideal.ieee, -EReal.coe_mul]; norm_num

private theorem zeroW_eq : zeroW = 0 := by
  simp [Ideal.ofBits, Ideal.ieee]

/-- The shift is a positive real. -/
private theorem epsW_pos : ∃ e : ℝ, 0 < e ∧ epsW = (e : EReal) := by
  refine ⟨10995116 * (2 : ℝ) ^ (-40 : ℤ), by positivity, ?_⟩
  simp [Ideal.ofBits, Ideal.ieee, -EReal.coe_mul]

/-! ## Signs -/

/-- A square of an extended real is never negative. -/
private theorem mul_self_nonneg' (x : EReal) : 0 ≤ x * x := by
  rw [EReal.mul_nonneg_iff]
  rcases le_total 0 x with hx | hx
  · exact Or.inl ⟨hx, hx⟩
  · exact Or.inr ⟨hx, hx⟩

/-- The mean of non-negative columns is not negative. -/
private theorem mean_nonneg (f : Fin 256 → EReal) (hf : ∀ c, 0 ≤ f c) : 0 ≤ mean f := by
  unfold mean
  rw [n256_eq, Ideal.div_coe (by norm_num)]
  exact EReal.mul_nonneg (Finset.sum_nonneg (fun c _ => hf c)) (by exact_mod_cast (by norm_num : (0 : ℝ) ≤ 1 / 256))

private theorem var_nonneg (h : Fin 256 → EReal) : 0 ≤ var h :=
  mean_nonneg _ (fun c => mul_self_nonneg' _)

/-- A non-negative extended real shifted by the positive constant is a positive real or the top. -/
private theorem shifted (v : EReal) (hv : 0 ≤ v) : (∃ r : ℝ, 0 < r ∧ v + epsW = (r : EReal)) ∨ v + epsW = ⊤ := by
  obtain ⟨e, he, hE⟩ := epsW_pos
  rw [hE]
  induction v using EReal.rec with
  | bot => exact absurd hv (by simp)
  | coe r =>
    left
    refine ⟨r + e, ?_, by rw [EReal.coe_add]⟩
    have : (0 : ℝ) ≤ r := by exact_mod_cast hv
    linarith
  | top => right; exact EReal.top_add_coe e

/-- The two normalisations agree on every row (no finiteness needed: the shifted variance is positive). -/
theorem lnK_eq_lnR (h : Fin 256 → EReal) : lnK h = lnR h := by
  funext c
  unfold lnK lnR
  rcases shifted (var h) (var_nonneg h) with ⟨r, hr, hy⟩ | hy
  · have hsq : Real.sqrt r ≠ 0 := (Real.sqrt_pos.2 hr).ne'
    rw [hy, Ideal.rsqrt_coe, if_neg (not_lt.2 hr.le), if_neg hr.ne', Ideal.sqrt_coe, if_neg (not_lt.2 hr.le),
      Ideal.div_coe hsq, one_div]
  · rw [hy, Ideal.rsqrt_top, Ideal.sqrt_top, Ideal.div, if_neg (by simp), EReal.inv_top]

/-- The indicator sums pick the indexed row of a real table. -/
theorem gatherK_eq (id : BitVec 32) (idc : Fin 256) (hid : id = BitVec.ofNat 32 idc.val) (gb : Fin 256 → Fin 512 → EReal)
    (hgb : ∀ g j, ∃ r : ℝ, gb g j = (r : EReal)) (j : Fin 512) : gatherK id gb j = gb idc j := by
  unfold gatherK
  have h2 : (∑ g, oh id g * (gb g j - gb g j)) = 0 := by
    apply Finset.sum_eq_zero
    intro g _
    obtain ⟨r, hr⟩ := hgb g j
    rw [hr, ← EReal.coe_sub, sub_self, EReal.coe_zero, mul_zero]
  have h1 : (∑ g, oh id g * gb g j) = gb idc j := by
    rw [Finset.sum_eq_single idc]
    · unfold oh
      rw [if_pos hid, one_mul]
    · intro g _ hne
      have h0 : oh id g = 0 := by
        unfold oh
        rw [if_neg]
        intro hg
        apply hne
        have ht := congrArg BitVec.toNat (hid.symm.trans hg)
        simp only [BitVec.toNat_ofNat] at ht
        apply Fin.ext
        have := g.isLt
        have := idc.isLt
        omega
      rw [h0, zero_mul]
    · intro hn
      exact absurd (Finset.mem_univ _) hn
  rw [h1, h2, add_zero]

/-- The two arrangements of a row agree when the table is real and the index names a table row. -/
theorem rowK_eq_rowR (x : Fin 256 → EReal) (id : BitVec 32) (idc : Fin 256) (hid : id = BitVec.ofNat 32 idc.val)
    (gb : Fin 256 → Fin 512 → EReal) (hgb : ∀ g j, ∃ r : ℝ, gb g j = (r : EReal)) (w1T : Fin 256 → Fin 256 → EReal)
    (w2T : Fin 256 → Fin 256 → EReal) (b2 : Fin 256 → EReal) (w3T : Fin 256 → Fin 512 → EReal) (b3 : Fin 512 → EReal) :
    rowK x id gb w1T w2T b2 w3T b3 = rowR x idc gb w1T w2T b2 w3T b3 := by
  unfold rowK rowR
  rw [lnK_eq_lnR]
  simp only [gatherK_eq id idc hid gb hgb]

/-- A weight-normalised matrix: row a of v scaled by g a over the row's Euclidean norm (the norm as the
    host computes it: the square root of zero plus the sum of squares). -/
def wn {n : ℕ} (v : Fin n → Fin 256 → EReal) (g : Fin n → EReal) (a : Fin n) (k : Fin 256) : EReal :=
  v a k * Ideal.div (g a) (Ideal.sqrt (zeroW + ∑ j, v a j * v a j))

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weight-normalised matrix of real v and g is real (a zero row stays zero whatever the quotient is). -/
theorem wn_real {n : ℕ} (v : Fin n → Fin 256 → EReal) (g : Fin n → EReal) (hv : ∀ a k, ∃ r : ℝ, v a k = (r : EReal))
    (hg : ∀ a, ∃ r : ℝ, g a = (r : EReal)) (a : Fin n) (k : Fin 256) : ∃ r : ℝ, wn v g a k = (r : EReal) := by
  unfold wn
  obtain ⟨ga, hga⟩ := hg a
  choose vr hvr using hv
  have hs : (∑ j, v a j * v a j) = ((∑ j, vr a j * vr a j : ℝ) : EReal) := by
    rw [coe_sum]
    apply Finset.sum_congr rfl
    intro j _
    rw [hvr, EReal.coe_mul]
  rw [zeroW_eq, zero_add, hs]
  have hs0 : 0 ≤ ∑ j, vr a j * vr a j := Finset.sum_nonneg (fun j _ => mul_self_nonneg _)
  by_cases hz : (∑ j, vr a j * vr a j) = 0
  · have hk : vr a k = 0 := by
      have := (Finset.sum_eq_zero_iff_of_nonneg (fun j _ => mul_self_nonneg (vr a j))).1 hz k (Finset.mem_univ _)
      exact mul_self_eq_zero.1 this
    refine ⟨0, ?_⟩
    rw [hvr, hk, EReal.coe_zero, zero_mul]
  · have hpos : 0 < ∑ j, vr a j * vr a j := lt_of_le_of_ne hs0 (Ne.symm hz)
    have hsq : Real.sqrt (∑ j, vr a j * vr a j) ≠ 0 := (Real.sqrt_pos.2 hpos).ne'
    refine ⟨vr a k * (ga * (1 / Real.sqrt (∑ j, vr a j * vr a j))), ?_⟩
    rw [Ideal.sqrt_coe, if_neg (not_lt.2 hs0), Ideal.div_coe hsq, hvr, hga, EReal.coe_mul, EReal.coe_mul]

/-- The per-graph table: the conditioning rows through the weight-normalised projection, plus bias. -/
def gbOf (cond : Fin 256 → Fin 256 → EReal) (vc : Fin 512 → Fin 256 → EReal) (gc bc : Fin 512 → EReal)
    (g : Fin 256) (j : Fin 512) : EReal :=
  (∑ k, cond g k * wn vc gc j k) + bc j

/-- The table of real inputs is real. -/
theorem gbOf_real (cond : Fin 256 → Fin 256 → EReal) (vc : Fin 512 → Fin 256 → EReal) (gc bc : Fin 512 → EReal)
    (hcond : ∀ a k, ∃ r : ℝ, cond a k = (r : EReal)) (hvc : ∀ a k, ∃ r : ℝ, vc a k = (r : EReal))
    (hgc : ∀ a, ∃ r : ℝ, gc a = (r : EReal)) (hbc : ∀ a, ∃ r : ℝ, bc a = (r : EReal)) (g : Fin 256) (j : Fin 512) :
    ∃ r : ℝ, gbOf cond vc gc bc g j = (r : EReal) := by
  unfold gbOf
  choose cr hcr using hcond
  choose wr hwr using fun k => wn_real vc gc hvc hgc j k
  obtain ⟨b, hb⟩ := hbc j
  refine ⟨(∑ k, cr g k * wr k) + b, ?_⟩
  rw [EReal.coe_add, coe_sum, hb]
  congr 1
  apply Finset.sum_congr rfl
  intro k _
  rw [hcr, hwr, EReal.coe_mul]

/-- The whole network on one row, first arrangement, from the argument arrays. -/
def netK (x : Fin 256 → EReal) (id : BitVec 32) (cond : Fin 256 → Fin 256 → EReal) (vc : Fin 512 → Fin 256 → EReal)
    (gc bc : Fin 512 → EReal) (v1 : Fin 256 → Fin 256 → EReal) (g1 : Fin 256 → EReal) (v2 : Fin 256 → Fin 256 → EReal)
    (g2 b2 : Fin 256 → EReal) (v3 : Fin 512 → Fin 256 → EReal) (g3 b3 : Fin 512 → EReal) : Fin 512 → EReal :=
  rowK x id (gbOf cond vc gc bc) (fun k c => wn v1 g1 c k) (fun k c => wn v2 g2 c k) b2 (fun k j => wn v3 g3 j k) b3

/-- The whole network on one row, second arrangement. -/
def netR (x : Fin 256 → EReal) (idc : Fin 256) (cond : Fin 256 → Fin 256 → EReal) (vc : Fin 512 → Fin 256 → EReal)
    (gc bc : Fin 512 → EReal) (v1 : Fin 256 → Fin 256 → EReal) (g1 : Fin 256 → EReal) (v2 : Fin 256 → Fin 256 → EReal)
    (g2 b2 : Fin 256 → EReal) (v3 : Fin 512 → Fin 256 → EReal) (g3 b3 : Fin 512 → EReal) : Fin 512 → EReal :=
  rowR x idc (gbOf cond vc gc bc) (fun k c => wn v1 g1 c k) (fun k c => wn v2 g2 c k) b2 (fun k j => wn v3 g3 j k) b3

/-- The table row an in-range index word names. -/
def idcOf (id : BitVec 32) : Fin 256 := ⟨id.toNat % 256, Nat.mod_lt _ (by norm_num)⟩

/-- An index word between 0 and 255 (as a signed integer) is the word of the row it names. -/
theorem eq_ofNat_idcOf (id : BitVec 32) (h0 : 0 ≤ id.toInt) (h1 : id.toInt < 256) : id = BitVec.ofNat 32 (idcOf id).val := by
  have hlt : id.toNat < 256 := by
    have hb := id.isLt
    rw [BitVec.toInt_eq_toNat_cond] at h0 h1
    split_ifs at h0 h1 <;> omega
  apply BitVec.eq_of_toNat_eq
  simp only [idcOf, BitVec.toNat_ofNat]
  omega

/-- The two arrangements of the whole network agree on a row whose index is in range, the conditioning inputs real. -/
theorem netK_eq_netR (x : Fin 256 → EReal) (id : BitVec 32) (h0 : 0 ≤ id.toInt) (h1 : id.toInt < 256)
    (cond : Fin 256 → Fin 256 → EReal) (vc : Fin 512 → Fin 256 → EReal) (gc bc : Fin 512 → EReal)
    (hcond : ∀ a k, ∃ r : ℝ, cond a k = (r : EReal)) (hvc : ∀ a k, ∃ r : ℝ, vc a k = (r : EReal))
    (hgc : ∀ a, ∃ r : ℝ, gc a = (r : EReal)) (hbc : ∀ a, ∃ r : ℝ, bc a = (r : EReal))
    (v1 : Fin 256 → Fin 256 → EReal) (g1 : Fin 256 → EReal) (v2 : Fin 256 → Fin 256 → EReal)
    (g2 b2 : Fin 256 → EReal) (v3 : Fin 512 → Fin 256 → EReal) (g3 b3 : Fin 512 → EReal) :
    netK x id cond vc gc bc v1 g1 v2 g2 b2 v3 g3 b3 = netR x (idcOf id) cond vc gc bc v1 g1 v2 g2 b2 v3 g3 b3 :=
  rowK_eq_rowR x id (idcOf id) (eq_ofNat_idcOf id h0 h1) _ (gbOf_real cond vc gc bc hcond hvc hgc hbc) _ _ _ _ _

/-! ## The whole result array, in both arrangements, from the argument arrays -/

abbrev Sh2 (a b : ℕ) : Shape := ⟨2, ![a, b]⟩
abbrev Sh1 (a : ℕ) : Shape := ⟨1, ![a]⟩

open ValueIdx in
/-- Entry (r, q) of the result in the first arrangement: the network on row r of x with index word ids r. -/
def netOutK (x : (Sh2 200000 256).Idx → EReal) (cond : (Sh2 256 256).Idx → EReal) (ids : (Sh1 200000).Idx → BitVec 32)
    (vc : (Sh2 512 256).Idx → EReal) (gc bc : (Sh1 512).Idx → EReal) (v1 : (Sh2 256 256).Idx → EReal) (g1 : (Sh1 256).Idx → EReal)
    (v2 : (Sh2 256 256).Idx → EReal) (g2 b2 : (Sh1 256).Idx → EReal) (v3 : (Sh2 512 256).Idx → EReal) (g3 b3 : (Sh1 512).Idx → EReal) :
    (Sh2 200000 512).Idx → EReal := fun i =>
  netK (fun k => x (ix2 (i 0 : Fin 200000) k)) (ids (ix1 (i 0 : Fin 200000))) (fun a k => cond (ix2 a k)) (fun a k => vc (ix2 a k))
    (fun a => gc (ix1 a)) (fun a => bc (ix1 a)) (fun a k => v1 (ix2 a k)) (fun a => g1 (ix1 a)) (fun a k => v2 (ix2 a k))
    (fun a => g2 (ix1 a)) (fun a => b2 (ix1 a)) (fun a k => v3 (ix2 a k)) (fun a => g3 (ix1 a)) (fun a => b3 (ix1 a)) (i 1 : Fin 512)

open ValueIdx in
/-- Entry (r, q) of the result in the second arrangement. -/
def netOutR (x : (Sh2 200000 256).Idx → EReal) (cond : (Sh2 256 256).Idx → EReal) (ids : (Sh1 200000).Idx → BitVec 32)
    (vc : (Sh2 512 256).Idx → EReal) (gc bc : (Sh1 512).Idx → EReal) (v1 : (Sh2 256 256).Idx → EReal) (g1 : (Sh1 256).Idx → EReal)
    (v2 : (Sh2 256 256).Idx → EReal) (g2 b2 : (Sh1 256).Idx → EReal) (v3 : (Sh2 512 256).Idx → EReal) (g3 b3 : (Sh1 512).Idx → EReal) :
    (Sh2 200000 512).Idx → EReal := fun i =>
  netR (fun k => x (ix2 (i 0 : Fin 200000) k)) (idcOf (ids (ix1 (i 0 : Fin 200000)))) (fun a k => cond (ix2 a k)) (fun a k => vc (ix2 a k))
    (fun a => gc (ix1 a)) (fun a => bc (ix1 a)) (fun a k => v1 (ix2 a k)) (fun a => g1 (ix1 a)) (fun a k => v2 (ix2 a k))
    (fun a => g2 (ix1 a)) (fun a => b2 (ix1 a)) (fun a k => v3 (ix2 a k)) (fun a => g3 (ix1 a)) (fun a => b3 (ix1 a)) (i 1 : Fin 512)

/-- The two arrangements of the whole result agree when every index word is in range and the conditioning inputs are real. -/
theorem netOutK_eq_netOutR (x : (Sh2 200000 256).Idx → EReal) (cond : (Sh2 256 256).Idx → EReal) (ids : (Sh1 200000).Idx → BitVec 32)
    (vc : (Sh2 512 256).Idx → EReal) (gc bc : (Sh1 512).Idx → EReal) (v1 : (Sh2 256 256).Idx → EReal) (g1 : (Sh1 256).Idx → EReal)
    (v2 : (Sh2 256 256).Idx → EReal) (g2 b2 : (Sh1 256).Idx → EReal) (v3 : (Sh2 512 256).Idx → EReal) (g3 b3 : (Sh1 512).Idx → EReal)
    (hids : ∀ i, 0 ≤ (ids i).toInt ∧ (ids i).toInt < 256)
    (hcond : ∀ i, ∃ r : ℝ, cond i = (r : EReal)) (hvc : ∀ i, ∃ r : ℝ, vc i = (r : EReal))
    (hgc : ∀ i, ∃ r : ℝ, gc i = (r : EReal)) (hbc : ∀ i, ∃ r : ℝ, bc i = (r : EReal)) :
    netOutK x cond ids vc gc bc v1 g1 v2 g2 b2 v3 g3 b3 = netOutR x cond ids vc gc bc v1 g1 v2 g2 b2 v3 g3 b3 := by
  funext i
  exact congrFun (netK_eq_netR _ _ (hids _).1 (hids _).2 _ _ _ _ (fun a k => hcond _) (fun a k => hvc _) (fun a => hgc _)
    (fun a => hbc _) _ _ _ _ _ _ _ _) _

end Cert.Film

end
-- ==== Proof.PreFacts.lean ====
import proofs.«421625_j75952201663101_2_alg».proof.Pre_finite_inputs
import proofs.«421625_j75952201663101_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
  What the precondition says of the inputs, read at the extended reals.

  The precondition is a conjunction of fourteen terms. Thirteen say, each of one float input, that the absolute
  value of every entry is below positive infinity; the fourteenth says that every entry of the index input is at
  least 0 and below 256, compared as signed words. An extended real whose absolute value is below the top element is
  neither the top nor the bottom element, so it is a real number. Only the four conditioning inputs and the index
  input are needed further on, so only their facts are kept.
-/

noncomputable section

namespace Cert.Film.PreFacts

open Idealize.ShloMosaic Cert.Pre_finite_inputs

/-- A shape of rank zero has one index. -/
instance : Subsingleton S_.Idx := ⟨fun a b => funext fun d => d.elim0⟩

/-- The pattern of positive infinity denotes the top element. -/
private theorem inf_eq_top : Ideal.ofBits .f32 0x7F800000#32 = (⊤ : EReal) := by
  simp [Ideal.ofBits, Ideal.ieee]

/-- An extended real whose absolute value, max x (-x), is strictly below the top element is a real number: the top
    element has absolute value top, and so has the bottom element. -/
private theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq_top] at h
  simp only [Ideal.cmp, StableHlo.Predicate.ofBool_eq_one_iff, decide_eq_true_eq] at h
  induction x using EReal.rec with
  | bot => simp at h
  | coe r => exact ⟨r, rfl⟩
  | top => simp at h

/-- One term of the conjunction, for a float input of any shape: if the conjunction over all entries of
    "the absolute value is below positive infinity" is true, every entry is a real number. -/
private theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : ∃ r : ℝ, x i = (r : EReal) :=
  real_of_abs_lt (x i) (Host.reduce_andi_all _ _ hr h0 _ e i)

/-- The last part: the running conjunction and the two masks of the index input. -/
private theorem part4 (v63 : IVec S_ 1) (v65 v67 : IVec S200000 1)
    (e : fn_part4 (F := Ideal) v63 v65 v67 ValueIdx.ix0 = 1#1) :
    v63 ValueIdx.ix0 = 1#1 ∧ ∀ i, v65 i = 1#1 ∧ v67 i = 1#1 := by
  unfold fn_part4 at e
  obtain ⟨h1, h2⟩ := IntOp.andi_eq_one.1 e
  exact ⟨h1, fun i => IntOp.andi_eq_one.1 (Host.reduce_andi_all _ _ _ _ _ h2 i)⟩

/-- The third part: the running conjunction on entry, and the range of the index input. The two masks are the signed
    comparisons of each index with the constants 0 and 256. -/
private theorem part3 (a2 : IVec S200000 32) (a12 a13 : FVec Ideal S512 .f32) (v48 : IVec S_ 1)
    (v49 v50 : FVec Ideal S512x256 .f32)
    (e : fn_part3 (F := Ideal) a2 a12 a13 v48 v49 v50 ValueIdx.ix0 = 1#1) :
    v48 ValueIdx.ix0 = 1#1 ∧ ∀ i, 0 ≤ (a2 i).toInt ∧ (a2 i).toInt < 256 := by
  unfold fn_part3 at e
  obtain ⟨h63, hid⟩ := part4 _ _ _ e
  obtain ⟨h58, -⟩ := IntOp.andi_eq_one.1 h63
  obtain ⟨h53, -⟩ := IntOp.andi_eq_one.1 h58
  obtain ⟨h48, -⟩ := IntOp.andi_eq_one.1 h53
  refine ⟨h48, fun i => ?_⟩
  obtain ⟨hge, hlt⟩ := hid i
  change IntOp.cmpi .sge (a2 i) 0#32 = 1#1 at hge
  change IntOp.cmpi .slt (a2 i) 256#32 = 1#1 at hlt
  have h0 : (0#32 : BitVec 32).toInt = 0 := by decide
  have h256 : (256#32 : BitVec 32).toInt = 256 := by decide
  exact ⟨h0 ▸ IntOp.cmpi_sge.1 hge, h256 ▸ IntOp.cmpi_slt.1 hlt⟩

/-- The second part passes the running conjunction and the index range through. -/
private theorem part2 (a2 : IVec S200000 32) (a8 : FVec Ideal S256x256 .f32) (a9 a10 : FVec Ideal S256 .f32)
    (a11 : FVec Ideal S512x256 .f32) (a12 a13 : FVec Ideal S512 .f32) (v33 : IVec S_ 1)
    (e : fn_part2 (F := Ideal) a2 a8 a9 a10 a11 a12 a13 v33 ValueIdx.ix0 = 1#1) :
    v33 ValueIdx.ix0 = 1#1 ∧ ∀ i, 0 ≤ (a2 i).toInt ∧ (a2 i).toInt < 256 := by
  unfold fn_part2 at e
  obtain ⟨h48, hid⟩ := part3 _ _ _ _ _ _ e
  obtain ⟨h43, -⟩ := IntOp.andi_eq_one.1 h48
  obtain ⟨h38, -⟩ := IntOp.andi_eq_one.1 h43
  obtain ⟨h33, -⟩ := IntOp.andi_eq_one.1 h38
  exact ⟨h33, hid⟩

/-- The first part: the running conjunction on entry, the mask it reduces first, the sixth input, the index range. -/
private theorem part1 (a2 : IVec S200000 32) (a5 : FVec Ideal S512 .f32) (a6 : FVec Ideal S256x256 .f32)
    (a7 : FVec Ideal S256 .f32) (a8 : FVec Ideal S256x256 .f32) (a9 a10 : FVec Ideal S256 .f32)
    (a11 : FVec Ideal S512x256 .f32) (a12 a13 : FVec Ideal S512 .f32) (v13 : IVec S_ 1) (v16 : IVec S512 1)
    (e : fn_part1 (F := Ideal) a2 a5 a6 a7 a8 a9 a10 a11 a12 a13 v13 v16 ValueIdx.ix0 = 1#1) :
    v13 ValueIdx.ix0 = 1#1 ∧ (∀ i, v16 i = 1#1) ∧ (∀ i, ∃ r : ℝ, a5 i = (r : EReal))
      ∧ ∀ i, 0 ≤ (a2 i).toInt ∧ (a2 i).toInt < 256 := by
  unfold fn_part1 at e
  obtain ⟨h33, hid⟩ := part2 _ _ _ _ _ _ _ _ e
  obtain ⟨h28, -⟩ := IntOp.andi_eq_one.1 h33
  obtain ⟨h23, -⟩ := IntOp.andi_eq_one.1 h28
  obtain ⟨h18, h22⟩ := IntOp.andi_eq_one.1 h23
  obtain ⟨h13, h17⟩ := IntOp.andi_eq_one.1 h18
  exact ⟨h13, fun i => Host.reduce_andi_all _ _ _ _ _ h17 i, all_real a5 _ _ _ h22, hid⟩

/-- THE PRECONDITION DECODED: the four conditioning inputs hold real numbers only, and every index is in [0, 256). -/
theorem of_pre (x0 : FVec Ideal S200000x256 .f32) (x1 : FVec Ideal S256x256 .f32) (x2 : IVec S200000 32)
    (x3 : FVec Ideal S512x256 .f32) (x4 x5 : FVec Ideal S512 .f32) (x6 : FVec Ideal S256x256 .f32)
    (x7 : FVec Ideal S256 .f32) (x8 : FVec Ideal S256x256 .f32) (x9 x10 : FVec Ideal S256 .f32)
    (x11 : FVec Ideal S512x256 .f32) (x12 x13 : FVec Ideal S512 .f32)
    (h : Cert.Pre_finite_inputs.fn (F := Ideal) x0 x1 x2 x3 x4 x5 x6 x7 x8 x9 x10 x11 x12 x13 = fun _ => 1#1) :
    (∀ i, ∃ r : ℝ, x1 i = (r : EReal)) ∧ (∀ i, ∃ r : ℝ, x3 i = (r : EReal)) ∧ (∀ i, ∃ r : ℝ, x4 i = (r : EReal))
      ∧ (∀ i, ∃ r : ℝ, x5 i = (r : EReal)) ∧ (∀ i, 0 ≤ (x2 i).toInt ∧ (x2 i).toInt < 256) := by
  have e := congrFun h ValueIdx.ix0
  unfold Cert.Pre_finite_inputs.fn at e
  obtain ⟨h13, h16, h5, hid⟩ := part1 _ _ _ _ _ _ _ _ _ _ _ _ e
  obtain ⟨h8, h12⟩ := IntOp.andi_eq_one.1 h13
  obtain ⟨-, h7⟩ := IntOp.andi_eq_one.1 h8
  exact ⟨all_real x1 _ _ _ h7, all_real x3 _ _ _ h12, fun i => real_of_abs_lt _ (h16 i), h5, hid⟩

end Cert.Film.PreFacts

end
-- ==== Proof.BodyK.lean ====
/-
  The frame of the word-level program: every weakly fair execution of its entry function on the cores ends, and
  each of the fourteen argument arrays then holds the words it held at the start.

  The row blocks do not divide the row count: the last block of the rows and of the index column runs past the
  arrays' end, its fetch is cut there, and the tail of the staging buffer holds words nothing names. The body's
  matrix products are functions of whole operands at the word level, so what it leaves in the output block cannot be
  written as a function of the arrays. The frame needs none of it: the output window is forgotten. Its staging
  buffer is handed to the body at some contents and taken back at some contents; each input buffer is handed over at
  its block, filled out past the array's end by whatever was there, and comes back unchanged, since the body only
  loads from it.
-/
import proofs.«421625_j75952201663101_2_alg».proof.Defs
import proofs.«421625_j75952201663101_2_alg».proof.Proof.Gen.Kernel.Frame
import proofs.«421625_j75952201663101_2_alg».proof.Proof.Gen.Kernel.Skeleton
import proofs.«421625_j75952201663101_2_alg».proof.Proof.Gen.Pre_finite_inputs
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging memrefs, the eight inputs' at contents x0 to x7 and the output's at anything, runs to
    the continuation with the inputs' as they were and the output's at some contents: it loads each input whole,
    loads the output's block, and stores one value over the whole of it. -/
theorem sound_kernel (c : Dev nD) (E : Set ℕ) (i : grid0.Coords)
    (arg1 : Memref sig .tc .vmem S4096x256 .f32) (harg1 : arg1.IsWhole) (arg2 : Memref sig .tc .vmem S4096x1 .i32) (harg2 : arg2.IsWhole)
    (arg3 : Memref sig .tc .vmem S256x512 .f32) (harg3 : arg3.IsWhole) (arg4 : Memref sig .tc .vmem S256x256 .bf16) (harg4 : arg4.IsWhole)
    (arg5 : Memref sig .tc .vmem S256x256 .bf16) (harg5 : arg5.IsWhole) (arg6 : Memref sig .tc .vmem S256 .f32) (harg6 : arg6.IsWhole)
    (arg7 : Memref sig .tc .vmem S256x512 .bf16) (harg7 : arg7.IsWhole) (arg8 : Memref sig .tc .vmem S512 .f32) (harg8 : arg8.IsWhole)
    (arg9 : Memref sig .tc .vmem S4096x512 .f32) (harg9 : arg9.IsWhole)
    (x0 : Vec F S4096x256 .f32) (x1 : Vec F S4096x1 .i32) (x2 : Vec F S256x512 .f32) (x3 : Vec F S256x256 .bf16)
    (x4 : Vec F S256x256 .bf16) (x5 : Vec F S256 .f32) (x6 : Vec F S256x512 .bf16) (x7 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ (∃ d, owns (c : Thread nD τ) arg9 fullShare d)) -∗ K ⟨⟩))
      ⊢ wp frame (wpE (defs₀ (F := F)) Variants.none c none) E
          (cc0__film_kernel i arg1 harg1 arg2 harg2 arg3 harg3 arg4 harg4 arg5 harg5 arg6 harg6 arg7 harg7 arg8 harg8 arg9 harg9) K := by
  simp only [cc0__film_kernel_eq_skeleton]; unfold cc0__film_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; iexists _; isplitr
  swap; · iexact H8
  ipureintro; rfl

/-! ## The proof data -/

/-- The one window this frame forgets: the output (window 8). Nothing reads what the body leaves there. -/
def fgt : Fin 9 → Bool := fun w => w.val == 8

/-- The proof data of the one pipeline on core c. The arrays are as the region finds them. After the body at point t
    the rows' buffer (window 0) and the index column's (window 1) hold their blocks, filled out with a zero word past
    the array's end (those words are stated by no obligation); the six whole operands' buffers (windows 2 to 7) hold
    their blocks; the forgotten output's entry is a constant nothing reads. The invariant is the scratch buffers at
    anything and the generator register at some state; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0x00000000#32) (iblk m c 0 t)
    | ⟨1, _⟩ => win0_1.fill (grid0.coords t) (fun _ => (0 : BitVec 32)) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Scalar.ofBits .f32 0x00000000#32
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the two cut windows' buffers, -/
theorem after0_0 (c : Dev nD) (t : Fin cfg0.N) :
    (dats m 0 c).after 0 t = win0_0.fill (grid0.coords t) (fun _ => Scalar.ofBits .f32 0x00000000#32) (iblk m c 0 t) := by
  dsimp only [dats]
theorem after0_1 (c : Dev nD) (t : Fin cfg0.N) :
    (dats m 0 c).after 1 t = win0_1.fill (grid0.coords t) (fun _ => (0 : BitVec 32)) (iblk m c 1 t) := by
  dsimp only [dats]
/-- and in the six uncut inputs'. -/
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- The rows' and the index column's windows are fetched at every point: the body finds the block on the part of
    the buffer inside the array and, past the array's end, whatever the buffer held. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
/-- The six whole operands are fetched once and only read: at every point the body finds the block. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The part of what the body leaves in a cut window's buffer that lies inside the array is the block. -/
theorem cut_after0_0 (c : Dev nD) (t : Fin cfg0.N) :
    (cfg0.win 0).cut (cfg0.grid.coords t) ((dats m 0 c).after 0 t) = iblk m c 0 t := by
  rw [after0_0]; exact win0_0.cut_fill _ _ _
theorem cut_after0_1 (c : Dev nD) (t : Fin cfg0.N) :
    (cfg0.win 1).cut (cfg0.grid.coords t) ((dats m 0 c).after 1 t) = iblk m c 1 t := by
  rw [after0_1]; exact win0_1.cut_fill _ _ _

/-! ## The body obligation, at a generic point -/

/-- What the body is called with at point t: the invariant, what is owed, every input window's current staging
    buffer at what the body finds there, and the forgotten output's at some contents; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- and what it returns: the two cut windows' buffers stated on the part inside the array only, the six uncut
    inputs' at their blocks, the forgotten output's at some contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

set_option maxHeartbeats 1000000 in
/-- The body at any point. Each input's buffer holds its block (the two cut ones filled out by whatever lay past the
    array's end), so the body's triple applies; every input's buffer comes back as it went, which on the part inside
    the array is the block again; the invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    cut_after0_0, cut_after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩⟩
  iapply (sound_kernel c Set.univ (grid0.coords t) _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists X8; iexact H8
  iintro ⟨H0, H1, H2, H3, H4, H5, H6, H7, H8⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation at every point, the output window forgotten: no point is idle, windows 0 and 1 are
    stated on the part their transfers move, windows 2 to 7 exactly. -/
theorem body_obligation (c : Dev nD) :
    BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- At the compiled mesh, for any words, from any memory with zero counters: every weakly fair execution of the entry
    function on the cores terminates, and in every final state each input array of the pipeline holds what it held
    when the region was entered, as does every other unscoped buffer that is no array of the pipeline; of the output
    array nothing is stated. -/
theorem run_main : θ_run defs (onTc (τ := τ) (main (F := F))) (s₀ m ρ)
    (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => ((dats m 0 c).toRForget fgt).share_full fun _ => rfl)
    (howed := fun _ _ => rfl) (V := V m) (hmain := hmain m Variants.none) (hA := A_eq m) (hΦ := fun _ _ => rfl)

/-- THE FRAME: the fourteen argument arrays end as they began. Three of them are input arrays of the pipeline (the
    rows, and two bias vectors staged as they are): an input array is never written, so it holds its contents at the
    region's entry. The other eleven are read only by the host operations before the region and bypass it. No host
    operation writes an argument array, so the entry contents are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r (h : Pipeline.RDat.FramePost (cfgs 0) (fun c => (dats m 0 c).toRForget fgt) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 5 rfl).trans ((A_eq m c 5).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 7 rfl).trans ((A_eq m c 7).trans (V_main_arg13 m c))⟩) (run_main m ρ)

end Cert.Kernel.Hand

namespace Cert.Proof.FilmClaims

open Idealize.ShloMosaic Idealize.SL.Sem

/-- The frame claim of the word-level program, at the bit-exact instance: it holds of every memory, with or without
    the precondition. -/
theorem frame_k : Cert.frame_Kernel (hKernel := Cert.Kernel.Gen.facts) (hPre_finite_inputs := Cert.Pre_finite_inputs.Gen.facts) :=
  fun m ρ _ => Cert.Kernel.Hand.frame (F := Bits) m ρ

end Cert.Proof.FilmClaims

end
-- ==== Proof.OutBlk.lean ====
/-
  What the kernel body leaves in its output block, as one pure function of the eight blocks it loads: the body's
  arithmetic (the generated skeleton's payload terms) composed in the order the body computes them: the
  normalised first linear layer of the row block, the per-row table rows by the indicator sums, and the
  modulation and the two further layers over them.
-/
import proofs.«421625_j75952201663101_2_alg».proof.Proof.Gen.KernelIdeal.Skeleton

noncomputable section

namespace Cert.KernelIdeal.Hand

open Idealize.ShloMosaic Cert.KernelIdeal Cert.KernelIdeal.Gen

variable {F : FTy → Type} [FloatOps F]

/-- The output block from the input blocks: rows x0, index column x1, table x2, first-layer weights x3,
    second-layer weights x4 and bias x5, third-layer weights x6 and bias x7. -/
def outBlk (x0 : Vec F S4096x256 .f32) (x1 : Vec F S4096x1 .i32) (x2 : Vec F S256x512 .f32) (x3 : Vec F S256x256 .bf16)
    (x4 : Vec F S256x256 .bf16) (x5 : Vec F S256 .f32) (x6 : Vec F S256x512 .bf16) (x7 : Vec F S512 .f32) : Vec F S4096x512 .f32 :=
  k0_pay1 (k0_pay2 x0 x3) (k0_pay3 x1 x2) (k0_pay4 x1 x2) (Scalar.ofBits .f32 0x3F800000#32) x4 x5 x6 x7

end Cert.KernelIdeal.Hand

end
-- ==== Proof.BodyKI.lean ====
/-
  The frame of the idealized kernel program. The two row-blocked inputs (the rows and the index column) are
  fetched in blocks of 4096 rows over 200000 rows, so the last block overhangs the arrays by 704 rows and the
  staging buffers' tails there hold words nothing names. This file states what the body does on whole staging
  buffers (its triple), the proof data of the one pipeline (each input buffer at its block, the two cut ones
  filled out with zeros past the arrays' end; the output buffer at the body's output block of those), the body
  obligation in the form that states a cut window's buffer only on the rows inside the array, the run, and the
  frame.
-/
import proofs.«421625_j75952201663101_2_alg».proof.Proof.Gen.KernelIdeal.Frame
import proofs.«421625_j75952201663101_2_alg».proof.Proof.Gen.KernelIdeal.Skeleton
import proofs.«421625_j75952201663101_2_alg».proof.Proof.OutBlk
import Idealize.ShloMosaic.Lib.Pipeline.FrameBody
import Idealize.ShloMosaic.Lib.Pipeline.Value
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The kernel body on whole staging buffers, the eight inputs' at contents x0 to x7 and the output's at anything,
    runs to the continuation with the inputs' as they were and the output's at the output block of x0 to x7. -/
theorem sound_kernel (c : Dev nD) (E : Set ℕ) (i : grid0.Coords) (arg1 : Memref sig .tc .vmem S4096x256 .f32) (harg1 : arg1.IsWhole) (arg2 : Memref sig .tc .vmem S4096x1 .i32) (harg2 : arg2.IsWhole) (arg3 : Memref sig .tc .vmem S256x512 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x512 .bf16) (harg7 : arg7.IsWhole) (arg8 : Memref sig .tc .vmem S512 .f32) (harg8 : arg8.IsWhole) (arg9 : Memref sig .tc .vmem S4096x512 .f32) (harg9 : arg9.IsWhole)
    (x0 : Vec F S4096x256 .f32) (x1 : Vec F S4096x1 .i32) (x2 : Vec F S256x512 .f32) (x3 : Vec F S256x256 .bf16) (x4 : Vec F S256x256 .bf16) (x5 : Vec F S256 .f32) (x6 : Vec F S256x512 .bf16) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlk x0 x1 x2 x3 x4 x5 x6 x7)) -∗ K ⟨⟩))
      ⊢ wp frame (wpE (defs₀ (F := F)) Variants.none c none) E (cc0__film_kernel i arg1 harg1 arg2 harg2 arg3 harg3 arg4 harg4 arg5 harg5 arg6 harg6 arg7 harg7 arg8 harg8 arg9 harg9) K := by
  simp only [cc0__film_kernel_eq_skeleton]; unfold cc0__film_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  -- the body is eight whole loads, a load of the output buffer whose value nothing reads, and one whole store
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  -- the one store is through the whole buffer at zero offsets, so what the buffer reads afterwards is the stored
  -- value; and each load is through its whole buffer at zero offsets, so it reads the buffer's contents
  have hz2 : (![0, 0] : Fin 2 → Nat) = fun _ => 0 := funext fun a => by fin_cases a <;> rfl
  have hz1 : (![0] : Fin 1 → Nat) = fun _ => 0 := funext fun a => by fin_cases a; rfl
  have e0 : View.readAt (Elt F) arg1.view (Rect.unit (s := S4096x256) ![0, 0] S4096x256.size inb_S4096x256_S4096x256_0_0).toLoadRect f0 = View.read (Elt F) arg1.view f0 :=
    View.ld_unit_zero hz2 _ _
  have e1 : View.readAt (Elt F) arg2.view (Rect.unit (s := S4096x1) ![0, 0] S4096x1.size inb_S4096x1_S4096x1_0_0).toLoadRect f1 = View.read (Elt F) arg2.view f1 :=
    View.ld_unit_zero hz2 _ _
  have e2 : View.readAt (Elt F) arg3.view (Rect.unit (s := S256x512) ![0, 0] S256x512.size inb_S256x512_S256x512_0_0).toLoadRect f2 = View.read (Elt F) arg3.view f2 :=
    View.ld_unit_zero hz2 _ _
  have e3 : View.readAt (Elt F) arg4.view (Rect.unit (s := S256x256) ![0, 0] S256x256.size inb_S256x256_S256x256_0_0).toLoadRect f3 = View.read (Elt F) arg4.view f3 :=
    View.ld_unit_zero hz2 _ _
  have e4 : View.readAt (Elt F) arg5.view (Rect.unit (s := S256x256) ![0, 0] S256x256.size inb_S256x256_S256x256_0_0).toLoadRect f4 = View.read (Elt F) arg5.view f4 :=
    View.ld_unit_zero hz2 _ _
  have e5 : View.readAt (Elt F) arg6.view (Rect.unit (s := S256) ![0] S256.size inb_S256_S256_0).toLoadRect f5 = View.read (Elt F) arg6.view f5 :=
    View.ld_unit_zero hz1 _ _
  have e6 : View.readAt (Elt F) arg7.view (Rect.unit (s := S256x512) ![0, 0] S256x512.size inb_S256x512_S256x512_0_0).toLoadRect f6 = View.read (Elt F) arg7.view f6 :=
    View.ld_unit_zero hz2 _ _
  have e7 : View.readAt (Elt F) arg8.view (Rect.unit (s := S512) ![0] S512.size inb_S512_S512_0).toLoadRect f7 = View.read (Elt F) arg8.view f7 :=
    View.ld_unit_zero hz1 _ _
  refine (View.read_writes_eq_canon _ _ _ (fun y => ⟨_, List.mem_singleton_self _, View.mem_set_unit_zero hz2 inb_S4096x512_S4096x512_0_0 y⟩)).trans ?_
  refine (View.canon_unit_zero hz2 inb_S4096x512_S4096x512_0_0 _).trans ?_
  -- the stored value is the last payload over the loaded blocks and the first part's three results and constant one
  unfold outBlk
  rw [← e0, ← e1, ← e2, ← e3, ← e4, ← e5, ← e6, ← e7]
  rfl

/-! ## The pipeline's proof data -/

/-- The row block at point t, filled out with zeros past the array's end. -/
def xfull (c : Dev nD) (t : Fin cfg0.N) : Vec F S4096x256 .f32 :=
  (cfg0.win 0).fill (grid0.coords t) (fun _ => Scalar.ofBits .f32 0x00000000#32) (iblk m c 0 t)

/-- The index column's block at point t, likewise. -/
def ifull (c : Dev nD) (t : Fin cfg0.N) : Vec F S4096x1 .i32 :=
  (cfg0.win 1).fill (grid0.coords t) (fun _ => (0 : BitVec 32)) (iblk m c 1 t)

/-- The proof data of the one pipeline on core c: the arrays as the region finds them; after the body at point t
    each input's buffer at its block (the two cut ones filled out with zeros) and the output's at the output block
    of those; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => ifull m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (xfull m c t) (ifull m c t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the output window's buffer. -/
theorem after0_8 (c : Dev nD) (t : Fin cfg0.N) : (dats m 0 c).after 8 t
    = outBlk (xfull m c t) (ifull m c t) (iblk m c 2 t) (iblk m c 3 t) (iblk m c 4 t) (iblk m c 5 t) (iblk m c 6 t) (iblk m c 7 t) := by
  dsimp only [dats]

/-- On the rows inside the array the output block does not depend on what fills the two cut input blocks past the
    arrays' end. (True at the exact instance, where every operation of the body acts row by row; it is a
    hypothesis here.) -/
def RowLocal : Prop := ∀ (c : Dev nD) (t : Fin cfg0.N) (d0 : S4096x256.Idx → Elt F .f32) (d1 : S4096x1.Idx → Elt F .i32),
    (cfg0.win 8).cut (grid0.coords t) (outBlk ((cfg0.win 0).fill (grid0.coords t) d0 (iblk m c 0 t)) ((cfg0.win 1).fill (grid0.coords t) d1 (iblk m c 1 t))
        (iblk m c 2 t) (iblk m c 3 t) (iblk m c 4 t) (iblk m c 5 t) (iblk m c 6 t) (iblk m c 7 t))
      = (cfg0.win 8).cut (grid0.coords t) ((dats m 0 c).after 8 t)

/-! ## The body obligation -/

/-- What the body leaves in the input windows' buffers. -/
theorem after0_0 (c : Dev nD) (t : Fin cfg0.N) : (dats m 0 c).after 0 t = xfull m c t := by dsimp only [dats]
theorem after0_1 (c : Dev nD) (t : Fin cfg0.N) : (dats m 0 c).after 1 t = ifull m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- A cut input's buffer, just fetched, holds its block on the rows inside the array and anything past them. -/
theorem before0_0 (c : Dev nD) (t : Fin cfg0.N) (d) :
    (dats m 0 c).before 0 t d = (cfg0.win 0).fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = (cfg0.win 1).fill (grid0.coords t) d (iblk m c 1 t) := by
  unfold Dat.before; rw [if_pos (fetch0_1 t)]; unfold Dat.fetched Dat.blockOf iblk; rw [A_eq]
/-- An uncut input's buffer holds its block at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body obligation at every point, each cut window's buffer stated on the rows inside the array. -/
theorem body_obligation (hloc : RowLocal m) (c : Dev nD) :
    BodyObligationLoose (dats (F := F) m 0 c) (defs₀ (F := F)) Variants.none () Set.univ := fun t => by
  rw [bigSep_W0, bigSep_W0]
  -- no point is idle for any window; windows 0, 1 and 8 are the cut ones (the matches reduce)
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4,
    before0_5 m c t d5, before0_6 m c t d6, before0_7 m c t d7]
  iapply (sound_kernel (F := F) c Set.univ (grid0.coords t) _ _ _ _ _ _ _ _ _ _ _ _ _ _ _ _ _ _
    ((cfg0.win 0).fill (grid0.coords t) d0 (iblk m c 0 t)) ((cfg0.win 1).fill (grid0.coords t) d1 (iblk m c 1 t))
    (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  -- the invariant and what the core owes pass through unread
  isplitl [HΦ]; · iexact HΦ
  isplitl [Ho]; · iexact Ho
  -- a cut input's buffer is handed back as it came: its block on the rows inside the array, which are also the
  -- zero-filled block's rows there, and the tail it came with
  isplitl [H0]
  · iexists d0
    rw [after0_0, show (win0 0).cut (grid0.coords t) (xfull m c t) = iblk m c 0 t from (cfg0.win 0).cut_fill _ _ _]
    iexact H0
  isplitl [H1]
  · iexists d1
    rw [after0_1, show (win0 1).cut (grid0.coords t) (ifull m c t) = iblk m c 1 t from (cfg0.win 1).cut_fill _ _ _]
    iexact H1
  isplitl [H2]
  · rw [after0_2]; iexact H2
  isplitl [H3]
  · rw [after0_3]; iexact H3
  isplitl [H4]
  · rw [after0_4]; iexact H4
  isplitl [H5]
  · rw [after0_5]; iexact H5
  isplitl [H6]
  · rw [after0_6]; iexact H6
  isplitl [H7]
  · rw [after0_7]; iexact H7
  -- the output buffer holds the output block of the two cut blocks as they came, tails and all: that is itself
  -- filled with its own rows inside the array, and those rows are the rows of the block computed from the
  -- zero-filled inputs, the tails having no part in them (the hypothesis)
  iexists _
  rw [← hloc c t d0 d1, (win0 8).fill_cut]
  iexact H8

/-! ## The run and the frame -/

set_option backward.isDefEq.respectTransparency.types false in
/-- At the compiled mesh, for any values, from any memory with zero counters: every weakly fair execution of the
    program on the TensorCores terminates, and every final state has every array of the pipeline at what the
    proof data compute and every other unscoped buffer as the region found it. -/
theorem run_main (hloc : RowLocal m) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The frame: every argument array ends as it was launched. -/
theorem frame (hloc : RowLocal m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ hloc)

end Cert.KernelIdeal.Hand

end
-- ==== Proof.KPay2.lean ====
/-
  The first stretch of the kernel body read at an index, over the extended reals: entry (r, c) of the normalised
  first linear layer depends on row r of the row block only, and is the reciprocal-square-root normalisation of
  that row's 256 products with the weight block.
-/
import proofs.«421625_j75952201663101_2_alg».proof.Proof.OutBlk
import proofs.«421625_j75952201663101_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

namespace KPay2

/-! ## The two column forms: a vector made a one-column matrix, and a one-column matrix spread over the columns -/

/-- A vector of length a viewed as an a by 1 matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a by 1 matrix spread over b columns reads, at (p, c), the one column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The lane sum of a row block -/

/-- The sum over the columns of a 4096 by 256 block reads, at r, the sum of row r. -/
theorem laneSum_apply (v : FVec Ideal S4096x256 .f32) (r : Fin 4096) :
    multiReduction (F := Ideal) .add [1] S4096 v 0x00000000#32 reduces_S4096x256_S4096 (.inl rfl) rfl (ix1 r)
      = ∑ k : Fin 256, v (ix2 r k) := by
  refine (Ideal.multiReduction_add_single v _ reduces_S4096x256_S4096 (.inl rfl) rfl (ix1 r)).trans ?_
  refine Finset.sum_congr rfl fun k _ => congrArg v ?_
  funext a
  apply Fin.ext
  match a with
  | ⟨0, _⟩ => rfl
  | ⟨1, _⟩ => rfl

/-! ## The product of the row block with the weight block -/

/-- The left operand's row coordinate is the result's row coordinate. -/
theorem lhs_pay2_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- The left operand's column coordinate is the contraction coordinate. -/
theorem lhs_pay2_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's row coordinate is the contraction coordinate. -/
theorem rhs_pay2_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- The right operand's column coordinate is the result's column coordinate. -/
theorem rhs_pay2_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry (r, c) of the product into a zero block: the sum over k of row r at k times the weights at (k, c). -/
theorem prod_apply (a : FVec Ideal S4096x256 .bf16) (w : FVec Ideal S256x256 .bf16) (r : Fin 4096) (c : Fin 256) :
    matmul dot_S4096x256_S256x256_S4096x256_1_0_0_1_n_n none a w (constant (F := Ideal) S4096x256 .f32 0x00000000#32) (ix2 r c)
      = ∑ k : Fin 256, a (ix2 r k) * w (ix2 k c) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r c) ((ValueIdx.contrEquiv1 dot_S4096x256_S256x256_S4096x256_1_0_0_1_n_n 256 rfl rfl).symm k) = ix2 r k := funext fun ax => Fin.ext (by
    match ax with
    | ⟨0, _⟩ => exact lhs_pay2_0 _ _
    | ⟨1, _⟩ => exact (lhs_pay2_1 _ _).trans hk)
  have er : dot_S4096x256_S256x256_S4096x256_1_0_0_1_n_n.rhsIdx (ix2 r c) ((ValueIdx.contrEquiv1 dot_S4096x256_S256x256_S4096x256_1_0_0_1_n_n 256 rfl rfl).symm k) = ix2 k c := funext fun ax => Fin.ext (by
    match ax with
    | ⟨0, _⟩ => exact (rhs_pay2_0 _ _).trans hk
    | ⟨1, _⟩ => exact rhs_pay2_1 _ _)
  rw [el, er]

/-! ## The normalisation of a block, row by row -/

/-- The column of row means of a block: the lane sums, as a column, divided by 256. -/
def meanCol (v : FVec Ideal S4096x256 .f32) : FVec Ideal S4096x1 .f32 :=
  divf (shapeCast S4096x1 (multiReduction (F := Ideal) .add [1] S4096 v 0x00000000#32 reduces_S4096x256_S4096 (.inl rfl) rfl) shapeCasts_S4096_S4096x1)
    (broadcast S4096x1 (Scalar.ofBits (F := Ideal) .f32 0x43800000#32))

/-- The block less its row means. -/
def cenBlk (v : FVec Ideal S4096x256 .f32) : FVec Ideal S4096x256 .f32 :=
  subf v (broadcastTo S4096x256 (meanCol v) broadcasts_S4096x1_S4096x256)

/-- The column of row variances: the row means of the squared centred block. -/
def varCol (v : FVec Ideal S4096x256 .f32) : FVec Ideal S4096x1 .f32 :=
  meanCol (mulf (cenBlk v) (cenBlk v))

/-- The normalised block: the centred block times, row by row, the reciprocal square root of the shifted variance. -/
def normBlk (v : FVec Ideal S4096x256 .f32) : FVec Ideal S4096x256 .f32 :=
  mulf (cenBlk v) (broadcastTo S4096x256 (rsqrt (addf (varCol v) (broadcast S4096x1 (Scalar.ofBits (F := Ideal) .f32 0x3727C5AC#32))))
    broadcasts_S4096x1_S4096x256)

/-- The product block: the row block times the weight block, into a zero block. -/
def prodBlk (x0 : Vec Ideal S4096x256 .f32) (x3 : Vec Ideal S256x256 .bf16) : FVec Ideal S4096x256 .f32 :=
  matmul dot_S4096x256_S256x256_S4096x256_1_0_0_1_n_n none (truncf .bf16 x0 bitsLt_bf16_f32 : FVec Ideal S4096x256 .bf16)
    (shapeCast S256x256 x3 shapeCasts_S256x256_S256x256 : FVec Ideal S256x256 .bf16) (constant (F := Ideal) S4096x256 .f32 0x00000000#32)

/-- The mean column at row r is the mean of row r. -/
theorem meanCol_apply (v : FVec Ideal S4096x256 .f32) (r : Fin 4096) (u : Fin 1) :
    meanCol v (ix2 r u) = Cert.Film.mean (fun c => v (ix2 r c)) := by
  unfold meanCol Cert.Film.mean
  rw [divf_apply, broadcast_apply, shapeCast_a_a1_apply, laneSum_apply]
  rfl

/-- The centred block at (r, c) is row r centred, at c. -/
theorem cenBlk_apply (v : FVec Ideal S4096x256 .f32) (r : Fin 4096) (c : Fin 256) :
    cenBlk v (ix2 r c) = Cert.Film.cen (fun c' => v (ix2 r c')) c := by
  unfold cenBlk Cert.Film.cen
  rw [subf_apply, broadcastTo_a1_ab_apply, meanCol_apply]

/-- The variance column at row r is the variance of row r. -/
theorem varCol_apply (v : FVec Ideal S4096x256 .f32) (r : Fin 4096) (u : Fin 1) :
    varCol v (ix2 r u) = Cert.Film.var (fun c => v (ix2 r c)) := by
  unfold varCol Cert.Film.var
  rw [meanCol_apply]
  refine congrArg Cert.Film.mean (funext fun c => ?_)
  rw [mulf_apply, cenBlk_apply]

/-- The normalised block at (r, c) is the normalisation of row r, at c. -/
theorem normBlk_apply (v : FVec Ideal S4096x256 .f32) (r : Fin 4096) (c : Fin 256) :
    normBlk v (ix2 r c) = Cert.Film.lnK (fun c' => v (ix2 r c')) c := by
  unfold normBlk Cert.Film.lnK
  rw [mulf_apply, broadcastTo_a1_ab_apply, cenBlk_apply]
  show _ * Ideal.rsqrt (varCol v (ix2 r (0 : Fin 1)) + _) = _
  rw [varCol_apply]
  rfl

/-- The product block at (r, c): the sum over k of row r of x0 at k times x3 at (k, c). -/
theorem prodBlk_apply (x0 : Vec Ideal S4096x256 .f32) (x3 : Vec Ideal S256x256 .bf16) (r : Fin 4096) (c : Fin 256) :
    prodBlk x0 x3 (ix2 r c) = ∑ k : Fin 256, x0 (ix2 r k) * x3 (ix2 k c) := by
  unfold prodBlk
  rw [prod_apply, shapeCast_self]
  rfl

/-- The first stretch of the body is the normalisation of the product block. -/
theorem pay2_eq (x0 : Vec Ideal S4096x256 .f32) (x3 : Vec Ideal S256x256 .bf16) :
    k0_pay2 (F := Ideal) x0 x3 = normBlk (prodBlk x0 x3) := rfl

end KPay2

open KPay2 in
/-- Entry (r, c) of the normalised first layer: the normalisation (product with the reciprocal square root of the
    shifted variance) of the row r of x0 times the weight block x3, at column c. -/
theorem pay2_apply (x0 : Vec Ideal S4096x256 .f32) (x3 : Vec Ideal S256x256 .bf16) (r : Fin 4096) (c : Fin 256) :
    k0_pay2 (F := Ideal) x0 x3 (ix2 r c) = Cert.Film.lnK (fun c' => ∑ k : Fin 256, x0 (ix2 r k) * x3 (ix2 k c')) c := by
  rw [pay2_eq, normBlk_apply]
  exact congrArg (fun h => Cert.Film.lnK h c) (funext fun c' => prodBlk_apply x0 x3 r c')

end Cert.KernelIdeal.Hand

end
-- ==== Proof.KPay3.lean ====
/-
  The table rows the kernel body picks, read at an index: entry (r, j) of the gathered table is the sum over the
  256 table rows against the indicator of row r's index word, taken over the table and over the table minus
  itself; it depends on row r of the index column only.
-/
import proofs.«421625_j75952201663101_2_alg».proof.Proof.OutBlk
import proofs.«421625_j75952201663101_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-- The indicator block: entry (r, g) says whether row r's index word names table row g. -/
private def ohBlk (x1 : Vec Ideal S4096x1 .i32) : FVec Ideal S4096x256 .bf16 :=
  truncf .bf16
    (sitofp .f32
      (extui 32
        (cmpi .eq
          (broadcastTo S4096x256
            (shapeCast S4096x1 (shapeCast S4096 x1 shapeCasts_S4096x1_S4096) shapeCasts_S4096_S4096x1)
            broadcasts_S4096x1_S4096x256)
          (iota .tc S4096x256 32 [1] iota_S4096x256_d1_w32))
        natLt_1_32))
    bitsLt_bf16_f32

/-- A column spread over 256 columns reads, at (r, g), the column's entry of row r. -/
private theorem bcast_col_apply (x : IVec S4096x1 32) (r : Fin 4096) (g : Fin 256) :
    broadcastTo S4096x256 x broadcasts_S4096x1_S4096x256 (ix2 r g) = x (ix2 r (0 : Fin 1)) :=
  broadcastTo_apply x broadcasts_S4096x1_S4096x256 (ix2 r g) (ix2 r (0 : Fin 1)) (fun a => match a with
    | ⟨0, _⟩ => by show r.val = if (4096 : Nat) = 1 then 0 else r.val; rw [if_neg (by decide)]
    | ⟨1, _⟩ => by show 0 = if (1 : Nat) = 1 then 0 else g.val; rw [if_pos rfl])

/-- The column counter reads, at (r, g), the word of g. -/
private theorem iota_col_apply (r : Fin 4096) (g : Fin 256) :
    iota .tc S4096x256 32 [1] iota_S4096x256_d1_w32 (ix2 r g) = BitVec.ofNat 32 g.val :=
  iota_single_apply .tc S4096x256 32 1 iota_S4096x256_d1_w32 (ix2 r g)

/-- Entry (r, g) of the indicator block: the equality bit of row r's index word with the word of g, widened to a
    word and converted, is the real 1 when they are equal and the real 0 when not. -/
private theorem ohBlk_apply (x1 : Vec Ideal S4096x1 .i32) (r : Fin 4096) (g : Fin 256) :
    ohBlk x1 (ix2 r g) = Cert.Film.oh (x1 (ix2 r (0 : Fin 1))) g := by
  unfold ohBlk
  rw [shapeCast_shapeCast]
  show ((((IntOp.cmpi .eq (broadcastTo S4096x256 x1 broadcasts_S4096x1_S4096x256 (ix2 r g))
      (iota .tc S4096x256 32 [1] iota_S4096x256_d1_w32 (ix2 r g))).setWidth 32).toInt : ℝ) : EReal) = _
  rw [bcast_col_apply, iota_col_apply]
  unfold Cert.Film.oh IntOp.cmpi
  by_cases h : x1 (ix2 r (0 : Fin 1)) = BitVec.ofNat 32 g.val
  · rw [if_pos h, h]
    simp
  · rw [if_neg h]
    have hb : (x1 (ix2 r (0 : Fin 1)) == BitVec.ofNat 32 g.val) = false := by simpa using h
    simp [hb]

/-! The product of a [4096, 256] block with a [256, 512] block contracts the first block's columns against the
    second block's rows: at output (r, j) and contraction index q the first operand is read at (r, q) and the second
    at (q, j). One statement per operand axis. -/

private theorem lhs_ax0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl

private theorem lhs_ax1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q

private theorem rhs_ax0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q

private theorem rhs_ax1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- Entry (r, j) of the product into the zero block: the sum over the 256 contraction positions g of the first
    block at (r, g) times the second at (g, j). -/
private theorem dot_apply (A : FVec Ideal S4096x256 .bf16) (B : FVec Ideal S256x512 .bf16) (r : Fin 4096) (j : Fin 512) :
    matmul dot_S4096x256_S256x512_S4096x512_1_0_0_1_n_n none A B (constant (F := Ideal) S4096x512 .f32 0x00000000#32) (ix2 r j)
      = ∑ g : Fin 256, A (ix2 r g) * B (ix2 g j) := by
  simp only [matmul]
  rw [Ideal.matmul_constant_zero_apply,
    ← Equiv.sum_comp (contrEquiv1 dot_S4096x256_S256x512_S4096x512_1_0_0_1_n_n 256 rfl rfl).symm]
  refine Finset.sum_congr rfl fun g _ => ?_
  have hg := contrEquiv1_symm_val dot_S4096x256_S256x512_S4096x512_1_0_0_1_n_n 256 rfl rfl g
  have el : dot_S4096x256_S256x512_S4096x512_1_0_0_1_n_n.lhsIdx (ix2 r j)
      ((contrEquiv1 dot_S4096x256_S256x512_S4096x512_1_0_0_1_n_n 256 rfl rfl).symm g) = ix2 r g :=
    funext fun a => Fin.ext (by
      match a with
      | ⟨0, _⟩ => exact lhs_ax0 _ _
      | ⟨1, _⟩ => exact (lhs_ax1 _ _).trans hg)
  have er : dot_S4096x256_S256x512_S4096x512_1_0_0_1_n_n.rhsIdx (ix2 r j)
      ((contrEquiv1 dot_S4096x256_S256x512_S4096x512_1_0_0_1_n_n 256 rfl rfl).symm g) = ix2 g j :=
    funext fun a => Fin.ext (by
      match a with
      | ⟨0, _⟩ => exact (rhs_ax0 _ _).trans hg
      | ⟨1, _⟩ => exact rhs_ax1 _ _)
  rw [el, er]

/-- Entry (r, j) of the gathered table. -/
theorem pay3_apply (x1 : Vec Ideal S4096x1 .i32) (x2 : Vec Ideal S256x512 .f32) (r : Fin 4096) (j : Fin 512) :
    k0_pay3 (F := Ideal) x1 x2 (ix2 r j) = Cert.Film.gatherK (x1 (ix2 r (0 : Fin 1))) (fun g j' => x2 (ix2 g j')) j := by
  -- the body's term: the sum of two products of the indicator block, with the table and with the table minus itself
  have e : k0_pay3 (F := Ideal) x1 x2 = addf
      (matmul dot_S4096x256_S256x512_S4096x512_1_0_0_1_n_n none (ohBlk x1)
        (truncf .bf16 (shapeCast S256x512 x2 shapeCasts_S256x512_S256x512) bitsLt_bf16_f32)
        (constant (F := Ideal) S4096x512 .f32 0x00000000#32))
      (matmul dot_S4096x256_S256x512_S4096x512_1_0_0_1_n_n none (ohBlk x1)
        (truncf .bf16 (subf (shapeCast S256x512 x2 shapeCasts_S256x512_S256x512)
          (shapeCast S256x512 x2 shapeCasts_S256x512_S256x512)) bitsLt_bf16_f32)
        (constant (F := Ideal) S4096x512 .f32 0x00000000#32)) := rfl
  rw [e, shapeCast_self, addf_apply, dot_apply, dot_apply]
  unfold Cert.Film.gatherK
  refine congrArg₂ (· + ·) (Finset.sum_congr rfl fun g _ => ?_) (Finset.sum_congr rfl fun g _ => ?_)
  · rw [ohBlk_apply]; rfl
  · rw [ohBlk_apply]; rfl

/-- Entry (r, c) of its first half. -/
theorem pay4_apply (x1 : Vec Ideal S4096x1 .i32) (x2 : Vec Ideal S256x512 .f32) (r : Fin 4096) (c : Fin 256) :
    k0_pay4 (F := Ideal) x1 x2 (ix2 r c) = Cert.Film.gatherK (x1 (ix2 r (0 : Fin 1))) (fun g j' => x2 (ix2 g j')) (Cert.Film.lo c) := by
  unfold k0_pay4
  -- the first half starts at column 0: its entry (r, c) is entry (r, c) of the whole
  refine (extractStridedSlice_apply ![0, 0] (k0_pay3 (F := Ideal) x1 x2) slices_S4096x512_o0_0_S4096x256 (ix2 r c)
    (ix2 r (Cert.Film.lo c)) (fun a => match a with
      | ⟨0, _⟩ => by show r.val = 0 + r.val; omega
      | ⟨1, _⟩ => by show c.val = 0 + c.val; omega)).trans ?_
  exact pay3_apply x1 x2 r (Cert.Film.lo c)

end Cert.KernelIdeal.Hand

end
-- ==== Proof.KPayload.lean ====
/-
  The last stretch of the kernel body read at an index, over the extended reals, and the whole output block with it.
  Entry (r, q) of the output block depends on row r of the three blocks it is computed from only: the normalised
  row is scaled by the row's scale plus the constant and shifted by the second half of the row's table row, rectified,
  sent through a linear layer with bias and rectified, and sent through a last linear layer with bias. Each of the two
  matrix products accumulates into zero, so its entry is the sum over the 256 contracted columns; the format changes
  in front of them are the identity; a bias vector laid along every row reads its own column.
-/
import proofs.«421625_j75952201663101_2_alg».proof.Proof.OutBlk
import proofs.«421625_j75952201663101_2_alg».proof.Proof.Spec
import proofs.«421625_j75952201663101_2_alg».proof.Proof.KPay2
import proofs.«421625_j75952201663101_2_alg».proof.Proof.KPay3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## The two matrix products at an index

Each contracts the left operand's columns against the right operand's rows. The four statements per product say
which coordinate of the left and of the right operand an output index and a contraction index name. -/

private theorem mm2_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
private theorem mm2_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
private theorem mm2_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
private theorem mm2_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry (r, c) of the second layer's product: row r of the left operand against column c of the weight block. -/
private theorem mm2_apply (a : FVec Ideal S4096x256 .bf16) (b : FVec Ideal S256x256 .bf16) (r : Fin 4096) (c : Fin 256) :
    matmul dot_S4096x256_S256x256_S4096x256_1_0_0_1_n_n none a b (constant S4096x256 .f32 0x00000000#32) (ix2 r c) = ∑ k : Fin 256, a (ix2 r k) * b (ix2 k c) := by
  show FloatOps.matmul dot_S4096x256_S256x256_S4096x256_1_0_0_1_n_n none a b (constant S4096x256 .f32 0x00000000#32) (ix2 r c) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun ax => Fin.ext (by
    match ax with
    | ⟨0, _⟩ => exact mm2_lhs_0 _ _
    | ⟨1, _⟩ => exact (mm2_lhs_1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun ax => Fin.ext (by
    match ax with
    | ⟨0, _⟩ => exact (mm2_rhs_0 _ _).trans hk
    | ⟨1, _⟩ => exact mm2_rhs_1 _ _)
  rw [el, er]

private theorem mm3_lhs_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
private theorem mm3_lhs_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
private theorem mm3_rhs_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
private theorem mm3_rhs_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- Entry (r, c) of the third layer's product: row r of the left operand against column c of the weight block. -/
private theorem mm3_apply (a : FVec Ideal S4096x256 .bf16) (b : FVec Ideal S256x512 .bf16) (r : Fin 4096) (c : Fin 512) :
    matmul dot_S4096x256_S256x512_S4096x512_1_0_0_1_n_n none a b (constant S4096x512 .f32 0x00000000#32) (ix2 r c) = ∑ k : Fin 256, a (ix2 r k) * b (ix2 k c) := by
  show FloatOps.matmul dot_S4096x256_S256x512_S4096x512_1_0_0_1_n_n none a b (constant S4096x512 .f32 0x00000000#32) (ix2 r c) = _
  rw [Ideal.matmul_constant_zero_apply, ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 r c) ((contrEquiv1 dot_S4096x256_S256x512_S4096x512_1_0_0_1_n_n 256 rfl rfl).symm k) = ix2 r k := funext fun ax => Fin.ext (by
    match ax with
    | ⟨0, _⟩ => exact mm3_lhs_0 _ _
    | ⟨1, _⟩ => exact (mm3_lhs_1 _ _).trans hk)
  have er : dot_S4096x256_S256x512_S4096x512_1_0_0_1_n_n.rhsIdx (ix2 r c) ((contrEquiv1 dot_S4096x256_S256x512_S4096x512_1_0_0_1_n_n 256 rfl rfl).symm k) = ix2 k c := funext fun ax => Fin.ext (by
    match ax with
    | ⟨0, _⟩ => exact (mm3_rhs_0 _ _).trans hk
    | ⟨1, _⟩ => exact mm3_rhs_1 _ _)
  rw [el, er]

/-! ## The output block at an index -/

/-- Entry (r, q) of the last stretch: the modulated, rectified row through the two further layers. -/
theorem pay1_apply (v22 : FVec Ideal S4096x256 .f32) (v40 : FVec Ideal S4096x512 .f32) (v41 : FVec Ideal S4096x256 .f32) (cst : Ideal .f32)
    (x4 : Vec Ideal S256x256 .bf16) (x5 : Vec Ideal S256 .f32) (x6 : Vec Ideal S256x512 .bf16) (x7 : Vec Ideal S512 .f32) (r : Fin 4096) (q : Fin 512) :
    k0_pay1 (F := Ideal) v22 v40 v41 cst x4 x5 x6 x7 (ix2 r q)
      = Cert.Film.tail (fun c => v22 (ix2 r c)) (fun c => v41 (ix2 r c) + cst) (fun c => v40 (ix2 r (Cert.Film.hi c)))
          (fun k c => x4 (ix2 k c)) (fun c => x5 (ix1 c)) (fun k j => x6 (ix2 k j)) (fun j => x7 (ix1 j)) q := by
  unfold k0_pay1
  simp only [addf_apply, mm3_apply, mm2_apply, truncf_apply, maximumf_apply, mulf_apply, broadcast_apply, shapeCast_self,
    broadcastTo_1b_ab_apply, shapeCast_a_1a_apply, slice2_axis1_eq]
  rfl

/-- Entry (r, q) of the output block: the first arrangement of the network on row r. -/
theorem outBlk_apply (x0 : Vec Ideal S4096x256 .f32) (x1 : Vec Ideal S4096x1 .i32) (x2 : Vec Ideal S256x512 .f32) (x3 : Vec Ideal S256x256 .bf16)
    (x4 : Vec Ideal S256x256 .bf16) (x5 : Vec Ideal S256 .f32) (x6 : Vec Ideal S256x512 .bf16) (x7 : Vec Ideal S512 .f32) (r : Fin 4096) (q : Fin 512) :
    outBlk (F := Ideal) x0 x1 x2 x3 x4 x5 x6 x7 (ix2 r q)
      = Cert.Film.rowK (fun k => x0 (ix2 r k)) (x1 (ix2 r (0 : Fin 1))) (fun g j => x2 (ix2 g j)) (fun k c => x3 (ix2 k c))
          (fun k c => x4 (ix2 k c)) (fun c => x5 (ix1 c)) (fun k j => x6 (ix2 k j)) (fun j => x7 (ix1 j)) q := by
  unfold outBlk
  rw [pay1_apply]
  unfold Cert.Film.rowK
  simp only [pay2_apply, pay3_apply, pay4_apply]
  rfl

end Cert.KernelIdeal.Hand

end
-- ==== Proof.KIValue.lean ====
/-
  The value the idealized kernel program leaves in its result array, read off its frame run.

  The result has 200000 rows of 512 columns and is written back in blocks of 4096 rows, one per grid point;
  the last block overhangs the array by 704 rows and only its first 3392 rows are written. The body's output
  block at a point depends, row by row, on the same row of the row block and of the index column's block and
  on the six resident blocks (each the whole of its array). So on the rows inside the array the output block
  does not see what fills the two cut input blocks past the arrays' end, and row r of the result is the
  one-row network applied to row r of the arrays the region finds.
-/
import proofs.«421625_j75952201663101_2_alg».proof.Proof.BodyKI
import proofs.«421625_j75952201663101_2_alg».proof.Proof.KPayload
import proofs.«421625_j75952201663101_2_alg».proof.Proof.OutBlk
import proofs.«421625_j75952201663101_2_alg».proof.Proof.Spec
import proofs.«421625_j75952201663101_2_alg».proof.Proof.Gen.KernelIdeal.Frame
import proofs.«421625_j75952201663101_2_alg».proof.Proof.Gen.KernelIdeal.Points
import proofs.«421625_j75952201663101_2_alg».proof.Proof.Gen.KernelIdeal.Launch
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The windows' blocks at a point, decided over the 49 points -/

/-- At point t the three row-blocked windows (the rows, the index column, the result) are at block (t, 0),
    and their blocks' row extent inside the arrays is the same: 4096 rows, or what is left of 200000. -/
theorem blk_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_0.xsize (grid0.coords t) (0 : Fin 2) = min 4096 (200000 - 4096 * t.val) ∧ win0_0.xsize (grid0.coords t) (1 : Fin 2) = 256
    ∧ win0_1.xsize (grid0.coords t) (0 : Fin 2) = min 4096 (200000 - 4096 * t.val) ∧ win0_1.xsize (grid0.coords t) (1 : Fin 2) = 1
    ∧ win0_8.xsize (grid0.coords t) (0 : Fin 2) = min 4096 (200000 - 4096 * t.val) ∧ win0_8.xsize (grid0.coords t) (1 : Fin 2) = 512 :=
  (by decide +kernel : ∀ t : Fin grid0.N, _)

/-- The six resident windows are at block 0 at every point: each block is the whole of its array. -/
theorem res_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The point of the grid that writes back row R of the result. -/
theorem row_point (R : Fin 200000) : R.val / 4096 < cfg0.N := by
  have h : R.val < 200000 := R.isLt
  show R.val / 4096 < 49
  omega

/-! ## The two cut input blocks on the rows inside the arrays -/

/-- A row of the row block inside the array is moved whole by the transfer at point t. -/
theorem moved_rows (t : Fin cfg0.N) (r : Fin 4096) (hr : r.val < min 4096 (200000 - 4096 * t.val)) (k : Fin 256) :
    (cfg0.win 0).moved (grid0.coords t) (ix2 r k) = true := by
  rw [Window.moved_iff]
  obtain ⟨-, -, -, -, -, -, e0, e1, -⟩ := blk_facts t
  intro a
  match a with
  | ⟨0, _⟩ => show r.val < win0_0.xsize (grid0.coords t) (0 : Fin 2); rw [e0]; exact hr
  | ⟨1, _⟩ => show k.val < win0_0.xsize (grid0.coords t) (1 : Fin 2); rw [e1]; exact k.isLt

/-- So is the row's entry of the index column's block. -/
theorem moved_ids (t : Fin cfg0.N) (r : Fin 4096) (hr : r.val < min 4096 (200000 - 4096 * t.val)) :
    (cfg0.win 1).moved (grid0.coords t) (ix2 r (0 : Fin 1)) = true := by
  rw [Window.moved_iff]
  obtain ⟨-, -, -, -, -, -, -, -, e0, e1, -⟩ := blk_facts t
  intro a
  match a with
  | ⟨0, _⟩ => show r.val < win0_1.xsize (grid0.coords t) (0 : Fin 2); rw [e0]; exact hr
  | ⟨1, _⟩ => show (0 : Fin 1).val < win0_1.xsize (grid0.coords t) (1 : Fin 2); rw [e1]; exact Nat.zero_lt_one

/-- On a row inside the array the filled-out row block does not see the filler. -/
theorem fill_rows_indep (t : Fin cfg0.N) (d d' : S4096x256.Idx → EReal) (g : ((cfg0.win 0).xblock (grid0.coords t)).Idx → EReal)
    (r : Fin 4096) (hr : r.val < min 4096 (200000 - 4096 * t.val)) (k : Fin 256) :
    (cfg0.win 0).fill (grid0.coords t) d g (ix2 r k) = (cfg0.win 0).fill (grid0.coords t) d' g (ix2 r k) := by
  unfold Window.fill
  rw [dif_pos (moved_rows t r hr k), dif_pos (moved_rows t r hr k)]

/-- Nor does the filled-out index column's block. -/
theorem fill_ids_indep (t : Fin cfg0.N) (d d' : S4096x1.Idx → BitVec 32) (g : ((cfg0.win 1).xblock (grid0.coords t)).Idx → BitVec 32)
    (r : Fin 4096) (hr : r.val < min 4096 (200000 - 4096 * t.val)) :
    (cfg0.win 1).fill (grid0.coords t) d g (ix2 r (0 : Fin 1)) = (cfg0.win 1).fill (grid0.coords t) d' g (ix2 r (0 : Fin 1)) := by
  unfold Window.fill
  rw [dif_pos (moved_ids t r hr), dif_pos (moved_ids t r hr)]

/-! ## The input blocks read off the arrays the region finds -/

/-- A row of the filled-out row block inside the array is the array's row: row r of block t is row 4096 t + r. -/
theorem xfull_row (c : Dev nD) (t : Fin cfg0.N) (r : Fin 4096) (hr : r.val < min 4096 (200000 - 4096 * t.val))
    (R : Fin 200000) (hR : R.val = 4096 * t.val + r.val) (k : Fin 256) :
    xfull m c t (ix2 r k) = (V m c main_arg0 : S200000x256.Idx → EReal) (ix2 R k) := by
  unfold xfull Window.fill
  rw [dif_pos (moved_rows t r hr k)]
  show (V m c main_arg0 : S200000x256.Idx → EReal) (((cfg0.win 0).blk t).view.emb _) = _
  refine congrArg _ (funext fun a => Fin.ext ?_)
  obtain ⟨e0, e1, -⟩ := blk_facts t
  match a with
  | ⟨0, _⟩ => show win0_0.index t (0 : Fin 2) * 4096 + 1 * r.val = R.val; rw [e0]; omega
  | ⟨1, _⟩ => show win0_0.index t (1 : Fin 2) * 256 + 1 * k.val = k.val; rw [e1]; omega

/-- The same row's entry of the filled-out index column's block is the index column's entry at that row. -/
theorem ifull_row (c : Dev nD) (t : Fin cfg0.N) (r : Fin 4096) (hr : r.val < min 4096 (200000 - 4096 * t.val))
    (R : Fin 200000) (hR : R.val = 4096 * t.val + r.val) :
    ifull m c t (ix2 r (0 : Fin 1)) = (V m c main_v31 : S200000x1.Idx → BitVec 32) (ix2 R (0 : Fin 1)) := by
  unfold ifull Window.fill
  rw [dif_pos (moved_ids t r hr)]
  show (V m c main_v31 : S200000x1.Idx → BitVec 32) (((cfg0.win 1).blk t).view.emb _) = _
  refine congrArg _ (funext fun a => Fin.ext ?_)
  obtain ⟨-, -, e0, e1, -⟩ := blk_facts t
  match a with
  | ⟨0, _⟩ => show win0_1.index t (0 : Fin 2) * 4096 + 1 * r.val = R.val; rw [e0]; omega
  | ⟨1, _⟩ => show win0_1.index t (1 : Fin 2) * 1 + 1 * (0 : Fin 1).val = (0 : Fin 1).val; rw [e1]; rfl

/-- Each resident block is its whole array. -/
theorem table_blk (c : Dev nD) (t : Fin cfg0.N) (g : Fin 256) (j : Fin 512) :
    (iblk m c 2 t : S256x512.Idx → EReal) (ix2 g j) = (V m c main_v30 : S256x512.Idx → EReal) (ix2 g j) := by
  show (V m c main_v30 : S256x512.Idx → EReal) (((cfg0.win 2).blk t).view.emb (ix2 g j)) = _
  refine congrArg _ (funext fun a => Fin.ext ?_)
  obtain ⟨e0, e1, -⟩ := res_facts t
  match a with
  | ⟨0, _⟩ => show win0_2.index t (0 : Fin 2) * 256 + 1 * g.val = g.val; rw [e0]; omega
  | ⟨1, _⟩ => show win0_2.index t (1 : Fin 2) * 512 + 1 * j.val = j.val; rw [e1]; omega

theorem w1_blk (c : Dev nD) (t : Fin cfg0.N) (k : Fin 256) (c' : Fin 256) :
    (iblk m c 3 t : S256x256.Idx → EReal) (ix2 k c') = (V m c main_v6 : S256x256.Idx → EReal) (ix2 k c') := by
  show (V m c main_v6 : S256x256.Idx → EReal) (((cfg0.win 3).blk t).view.emb (ix2 k c')) = _
  refine congrArg _ (funext fun a => Fin.ext ?_)
  obtain ⟨-, -, e0, e1, -⟩ := res_facts t
  match a with
  | ⟨0, _⟩ => show win0_3.index t (0 : Fin 2) * 256 + 1 * k.val = k.val; rw [e0]; omega
  | ⟨1, _⟩ => show win0_3.index t (1 : Fin 2) * 256 + 1 * c'.val = c'.val; rw [e1]; omega

theorem w2_blk (c : Dev nD) (t : Fin cfg0.N) (k : Fin 256) (c' : Fin 256) :
    (iblk m c 4 t : S256x256.Idx → EReal) (ix2 k c') = (V m c main_v13 : S256x256.Idx → EReal) (ix2 k c') := by
  show (V m c main_v13 : S256x256.Idx → EReal) (((cfg0.win 4).blk t).view.emb (ix2 k c')) = _
  refine congrArg _ (funext fun a => Fin.ext ?_)
  obtain ⟨-, -, -, -, e0, e1, -⟩ := res_facts t
  match a with
  | ⟨0, _⟩ => show win0_4.index t (0 : Fin 2) * 256 + 1 * k.val = k.val; rw [e0]; omega
  | ⟨1, _⟩ => show win0_4.index t (1 : Fin 2) * 256 + 1 * c'.val = c'.val; rw [e1]; omega

theorem b2_blk (c : Dev nD) (t : Fin cfg0.N) (c' : Fin 256) :
    (iblk m c 5 t : S256.Idx → EReal) (ix1 c') = (V m c main_arg10 : S256.Idx → EReal) (ix1 c') := by
  show (V m c main_arg10 : S256.Idx → EReal) (((cfg0.win 5).blk t).view.emb (ix1 c')) = _
  refine congrArg _ (funext fun a => Fin.ext ?_)
  obtain ⟨-, -, -, -, -, -, e0, -⟩ := res_facts t
  match a with
  | ⟨0, _⟩ => show win0_5.index t (0 : Fin 1) * 256 + 1 * c'.val = c'.val; rw [e0]; omega

theorem w3_blk (c : Dev nD) (t : Fin cfg0.N) (k : Fin 256) (j : Fin 512) :
    (iblk m c 6 t : S256x512.Idx → EReal) (ix2 k j) = (V m c main_v20 : S256x512.Idx → EReal) (ix2 k j) := by
  show (V m c main_v20 : S256x512.Idx → EReal) (((cfg0.win 6).blk t).view.emb (ix2 k j)) = _
  refine congrArg _ (funext fun a => Fin.ext ?_)
  obtain ⟨-, -, -, -, -, -, -, e0, e1, -⟩ := res_facts t
  match a with
  | ⟨0, _⟩ => show win0_6.index t (0 : Fin 2) * 256 + 1 * k.val = k.val; rw [e0]; omega
  | ⟨1, _⟩ => show win0_6.index t (1 : Fin 2) * 512 + 1 * j.val = j.val; rw [e1]; omega

theorem b3_blk (c : Dev nD) (t : Fin cfg0.N) (j : Fin 512) :
    (iblk m c 7 t : S512.Idx → EReal) (ix1 j) = (V m c main_arg13 : S512.Idx → EReal) (ix1 j) := by
  show (V m c main_arg13 : S512.Idx → EReal) (((cfg0.win 7).blk t).view.emb (ix1 j)) = _
  refine congrArg _ (funext fun a => Fin.ext ?_)
  obtain ⟨-, -, -, -, -, -, -, -, -, e0⟩ := res_facts t
  match a with
  | ⟨0, _⟩ => show win0_7.index t (0 : Fin 1) * 512 + 1 * j.val = j.val; rw [e0]; omega

/-! ## The result as one function of the arrays -/

/-- The result as one function of the arrays the region finds: row r through the one-row network. -/
def Gk (c : Dev nD) : S200000x512.Idx → EReal := fun i =>
  Cert.Film.rowK (fun k => (V m c main_arg0 : S200000x256.Idx → EReal) (ix2 (i 0 : Fin 200000) k))
    ((V m c main_v31 : S200000x1.Idx → BitVec 32) (ix2 (i 0 : Fin 200000) (0 : Fin 1)))
    (fun g j => (V m c main_v30 : S256x512.Idx → EReal) (ix2 g j)) (fun k c' => (V m c main_v6 : S256x256.Idx → EReal) (ix2 k c'))
    (fun k c' => (V m c main_v13 : S256x256.Idx → EReal) (ix2 k c')) (fun c' => (V m c main_arg10 : S256.Idx → EReal) (ix1 c'))
    (fun k j => (V m c main_v20 : S256x512.Idx → EReal) (ix2 k j)) (fun j => (V m c main_arg13 : S512.Idx → EReal) (ix1 j)) (i 1 : Fin 512)

/-- An index of the part of the result's block that is written back, as a row and a column of the block. -/
theorem out_xinj (t : Fin cfg0.N) (y : ((cfg0.win 8).xblock (grid0.coords t)).Idx) (h0 : (y 0).val < 4096) (h1 : (y 1).val < 512) :
    (cfg0.win 8).xinj (grid0.coords t) y = ix2 (⟨(y 0).val, h0⟩ : Fin 4096) (⟨(y 1).val, h1⟩ : Fin 512) :=
  funext fun a => Fin.ext (by match a with | ⟨0, _⟩ => rfl | ⟨1, _⟩ => rfl)

/-- On the rows inside the array the output block does not depend on what fills the two cut input blocks. -/
theorem rowLocal : RowLocal (F := Ideal) m := by
  intro c t d0 d1
  funext y
  obtain ⟨-, -, -, -, -, -, -, -, -, -, x0, x1⟩ := blk_facts t
  have hy0 : (y 0).val < win0_8.xsize (grid0.coords t) (0 : Fin 2) := (y 0).isLt
  have hy1 : (y 1).val < win0_8.xsize (grid0.coords t) (1 : Fin 2) := (y 1).isLt
  rw [x0] at hy0; rw [x1] at hy1
  have h0 : (y 0).val < 4096 := by omega
  show outBlk _ _ _ _ _ _ _ _ ((cfg0.win 8).xinj (grid0.coords t) y) = (dats m 0 c).after 8 t ((cfg0.win 8).xinj (grid0.coords t) y)
  rw [out_xinj t y h0 hy1, after0_8, outBlk_apply, outBlk_apply]
  have e0 : (fun k => (cfg0.win 0).fill (grid0.coords t) d0 (iblk m c 0 t) (ix2 (⟨(y 0).val, h0⟩ : Fin 4096) k))
      = fun k => xfull m c t (ix2 (⟨(y 0).val, h0⟩ : Fin 4096) k) :=
    funext fun k => fill_rows_indep t d0 _ (iblk m c 0 t) ⟨(y 0).val, h0⟩ hy0 k
  have e1 : (cfg0.win 1).fill (grid0.coords t) d1 (iblk m c 1 t) (ix2 (⟨(y 0).val, h0⟩ : Fin 4096) (0 : Fin 1))
      = ifull m c t (ix2 (⟨(y 0).val, h0⟩ : Fin 4096) (0 : Fin 1)) :=
    fill_ids_indep t d1 _ (iblk m c 1 t) ⟨(y 0).val, h0⟩ hy0
  rw [e0, e1]

/-- Row r, inside the array, of the output block at point t is row 4096 t + r of the result function. -/
theorem out_row (c : Dev nD) (t : Fin cfg0.N) (r : Fin 4096) (hr : r.val < min 4096 (200000 - 4096 * t.val))
    (R : Fin 200000) (hR : R.val = 4096 * t.val + r.val) (q : Fin 512) :
    (dats m 0 c).after 8 t (ix2 r q) = Gk m c (ix2 R q) := by
  rw [after0_8, outBlk_apply]
  unfold Gk
  rw [show (fun k => xfull m c t (ix2 r k)) = fun k => (V m c main_arg0 : S200000x256.Idx → EReal) (ix2 R k)
        from funext fun k => xfull_row m c t r hr R hR k,
    ifull_row m c t r hr R hR,
    show (fun g j => (iblk m c 2 t : S256x512.Idx → EReal) (ix2 g j)) = fun g j => (V m c main_v30 : S256x512.Idx → EReal) (ix2 g j)
        from funext fun g => funext fun j => table_blk m c t g j,
    show (fun k c' => (iblk m c 3 t : S256x256.Idx → EReal) (ix2 k c')) = fun k c' => (V m c main_v6 : S256x256.Idx → EReal) (ix2 k c')
        from funext fun k => funext fun c' => w1_blk m c t k c',
    show (fun k c' => (iblk m c 4 t : S256x256.Idx → EReal) (ix2 k c')) = fun k c' => (V m c main_v13 : S256x256.Idx → EReal) (ix2 k c')
        from funext fun k => funext fun c' => w2_blk m c t k c',
    show (fun c' => (iblk m c 5 t : S256.Idx → EReal) (ix1 c')) = fun c' => (V m c main_arg10 : S256.Idx → EReal) (ix1 c')
        from funext fun c' => b2_blk m c t c',
    show (fun k j => (iblk m c 6 t : S256x512.Idx → EReal) (ix2 k j)) = fun k j => (V m c main_v20 : S256x512.Idx → EReal) (ix2 k j)
        from funext fun k => funext fun j => w3_blk m c t k j,
    show (fun j => (iblk m c 7 t : S512.Idx → EReal) (ix1 j)) = fun j => (V m c main_arg13 : S512.Idx → EReal) (ix1 j)
        from funext fun j => b3_blk m c t j]

/-! ## From the blocks to the array -/

/-- What point t writes back is block t of the result function, cut at the array's end. -/
theorem flushed_eq (c : Dev nD) (t : Fin cfg0.N) :
    (dats m 0 c).flushed 8 t = ((cfg0.win 8).blk t).view.read (Elt Ideal) (Gk m c) := by
  funext y
  obtain ⟨-, -, -, -, i0, i1, -, -, -, -, x0, x1⟩ := blk_facts t
  have hy0 : (y 0).val < win0_8.xsize (grid0.coords t) (0 : Fin 2) := (y 0).isLt
  have hy1 : (y 1).val < win0_8.xsize (grid0.coords t) (1 : Fin 2) := (y 1).isLt
  rw [x0] at hy0; rw [x1] at hy1
  have ht : t.val < 49 := t.isLt
  have h0 : (y 0).val < 4096 := by omega
  have hR : 4096 * t.val + (y 0).val < 200000 := by omega
  show (dats m 0 c).after 8 t ((cfg0.win 8).xinj (grid0.coords t) y) = Gk m c (((cfg0.win 8).blk t).view.emb y)
  rw [out_xinj t y h0 hy1, out_row m c t ⟨(y 0).val, h0⟩ hy0 ⟨4096 * t.val + (y 0).val, hR⟩ rfl ⟨(y 1).val, hy1⟩]
  refine congrArg _ (funext fun a => Fin.ext ?_)
  match a with
  | ⟨0, _⟩ => show 4096 * t.val + (y 0).val = win0_8.index t (0 : Fin 2) * 4096 + 1 * (y 0).val; rw [i0]; omega
  | ⟨1, _⟩ => show (y 1).val = win0_8.index t (1 : Fin 2) * 512 + 1 * (y 1).val; rw [i1]; omega

/-- An index of the result is in point t's block iff each coordinate is in the block's range inside the array. -/
theorem mem_out_blk (t : Fin cfg0.N) (i : S200000x512.Idx) :
    i ∈ ((cfg0.win 8).blk t).view.set ↔ ∀ a : Fin 2, win0_8.index t a * S4096x512.size a ≤ (i a).val
      ∧ (i a).val < win0_8.index t a * S4096x512.size a + win0_8.xsize (grid0.coords t) a := by
  show i ∈ ((View.whole main_v32).slice (win0_8.rect t)).set ↔ _
  rw [View.set_slice_whole, Rect.mem_set_unit]
  exact Iff.rfl

/-- Every index of the result is in the block of the point its row falls to: row R in block R / 4096. -/
theorem out_cover (i : S200000x512.Idx) : ∃ t : Fin cfg0.N, (cfg0.win 8).flush t = true ∧ i ∈ ((cfg0.win 8).blk t).view.set := by
  have hi0 : (i 0).val < 200000 := (i 0).isLt
  have hi1 : (i 1).val < 512 := (i 1).isLt
  refine ⟨⟨(i 0).val / 4096, row_point (i 0)⟩, flush0_8 _, ?_⟩
  rw [mem_out_blk]
  obtain ⟨-, -, -, -, i0, i1, -, -, -, -, x0, x1⟩ := blk_facts ⟨(i 0).val / 4096, row_point (i 0)⟩
  intro a
  match a with
  | ⟨0, _⟩ =>
    show win0_8.index _ (0 : Fin 2) * 4096 ≤ (i 0).val ∧ (i 0).val < win0_8.index _ (0 : Fin 2) * 4096 + win0_8.xsize _ (0 : Fin 2)
    rw [i0, x0]; show (i 0).val / 4096 * 4096 ≤ (i 0).val ∧ (i 0).val < (i 0).val / 4096 * 4096 + min 4096 (200000 - 4096 * ((i 0).val / 4096)); omega
  | ⟨1, _⟩ =>
    show win0_8.index _ (1 : Fin 2) * 512 ≤ (i 1).val ∧ (i 1).val < win0_8.index _ (1 : Fin 2) * 512 + win0_8.xsize _ (1 : Fin 2)
    rw [i1, x1]; omega

/-- The result array after the run is the result function of the arrays the region finds. -/
theorem final_out (c : Dev nD) : (dats m 0 c).arrAt 8 cfg0.N = Gk m c :=
  (dats m 0 c).arrAt_eq_of_cover 8 (Gk m c) (fun t _ => flushed_eq m c t) out_cover

/-! ## The run, read -/

/-- At the compiled mesh, from any memory with zero counters: every weakly fair execution of the program
    terminates, and every final state has the result array at the result function of the arrays the region finds
    and every argument array as it was launched. -/
theorem run_value : θ_run defs (onTc (τ := τ) (main (F := Ideal))) ⟨m, fun _ => 0, ρ⟩ (fun r => ∀ c : Dev nD,
      r.2.mem ((c.tc : Thread nD τ).loc main_v32) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 8).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 5).trans (((dats m 0 c).arrAt_in 5 rfl _).trans ((A_eq m c 5).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 7).trans (((dats m 0 c).arrAt_in 7 rfl _).trans ((A_eq m c 7).trans (V_main_arg13 m c)))⟩)
    (run_main m ρ (rowLocal m))

/-- The frame of the idealized kernel program: every argument array ends as it was launched. -/
theorem frame_ki : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m ρ (rowLocal m)

end Cert.KernelIdeal.Hand

end
-- ==== Proof.KHost.lean ====
/-
  What the host operations before the kernel region leave in the five arrays the kernel's windows stage, as
  functions of the argument arrays, read at an index.

  Three of the arrays are weight matrices. Each is made from a matrix v and a gain g by the same chain: the
  Euclidean norm of every row of v (the square root of the sum of the row's squares, the sum started at the zero
  word), the gain over the norm, that quotient stretched along the row and multiplied into v, the result
  transposed, and a change of float format that is the identity on extended reals. Entry (k, a) of the result is
  therefore entry (a, k) of the weight-normalised matrix.

  The fourth is the per-graph table: the conditioning rows times such a transposed weight-normalised matrix (a sum
  over the 256 contraction coordinates), plus a bias stretched along the rows.

  The fifth is the index array laid out as one column: same row-major position, so the same row.
-/
import proofs.«421625_j75952201663101_2_alg».proof.Proof.Gen.KernelIdeal.Frame
import proofs.«421625_j75952201663101_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.Tactic Idealize.SL.Sem Idealize.ShloMosaic.StableHlo
open Cert.KernelIdeal Cert.KernelIdeal.Gen
open ValueIdx

variable (m : (ℓ : Loc nD τ sig) → Buf (Elt Ideal) ℓ)

namespace KHost

/-! ## The weight-normalisation chain of host operations, read at an index -/

/-- The host chain on a 256-row matrix v and a gain g: the row norms (square root of the sum of squares, the
    sum started at the zero word), g over them, stretched along the rows, times v, transposed. -/
def wnF256 (v : FVec Ideal S256x256 .f32) (g : FVec Ideal S256 .f32) :
    FVec Ideal S256x256 .f32 :=
  transpose S256x256 [1, 0] (mulf v (broadcastInDim S256x256 ![0, 1] bcast_S256x1_S256x256_0_1
    (broadcastInDim S256x1 ![0] bcast_S256_S256x1_0 (Host.divf g (Host.sqrt
      (Host.reduceAdd (mulf v v) (constant (F := Ideal) S_ .f32 0x00000000#32) reducesTo_S256x256_S256_d1 h_S_))))))
    transposes_S256x256_S256x256_1_0

/-- The row norm's radicand at row a: the zero word's value plus the sum of the row's squares. -/
theorem sumsq256_apply (v : FVec Ideal S256x256 .f32) (a : Fin 256) :
    Host.reduceAdd (F := Ideal) (mulf v v) (constant (F := Ideal) S_ .f32 0x00000000#32) reducesTo_S256x256_S256_d1 h_S_ (ix1 a)
      = Cert.Film.zeroW + ∑ j : Fin 256, v (ix2 a j) * v (ix2 a j) := by
  generalize hy : mulf v v = y0
  simp only [Host.reduceAdd, Ideal.hostReduceAdd_def]
  rw [Ideal.hostReduceAdd_single reducesTo_S256x256_S256_d1 (by decide)]
  refine congrArg (_ + ·) (Finset.sum_congr rfl fun j _ => ?_)
  subst hy
  have e : (Shape.Reduces.lift (by decide : S256x256.Reduces [1] S256) (ix1 a) j : S256x256.Idx) = ix2 a j :=
    funext fun d => Fin.ext (by match d with | ⟨0, _⟩ => rfl | ⟨1, _⟩ => rfl)
  rw [e]
  rfl

/-- Entry (k, a) of the chain's result is entry (a, k) of the weight-normalised matrix. -/
theorem wnF256_apply (v : FVec Ideal S256x256 .f32) (g : FVec Ideal S256 .f32)
    (k a : Fin 256) :
    wnF256 v g (ix2 k a) = Cert.Film.wn (fun a b => v (ix2 a b)) (fun a => g (ix1 a)) a k := by
  unfold wnF256 Cert.Film.wn
  rw [transpose_apply [1, 0] _ transposes_S256x256_S256x256_1_0 (ix2 k a) (ix2 a k)
    (fun b => match b with | ⟨0, _⟩ => rfl | ⟨1, _⟩ => rfl)]
  rw [mulf_apply]
  rw [broadcastInDim_apply _ bcast_S256x1_S256x256_0_1 _ (ix2 a k) (ix2 a (0 : Fin 1)) (fun d => match d with
    | ⟨0, _⟩ => by show a.val = if (256 : Nat) = 1 then 0 else a.val; rw [if_neg (by decide)]
    | ⟨1, _⟩ => by show 0 = if (1 : Nat) = 1 then 0 else k.val; rw [if_pos rfl])]
  rw [broadcastInDim_apply _ bcast_S256_S256x1_0 _ (ix2 a (0 : Fin 1)) (ix1 a) (fun d => match d with
    | ⟨0, _⟩ => by show a.val = if (256 : Nat) = 1 then 0 else a.val; rw [if_neg (by decide)])]
  show v (ix2 a k) * Ideal.div (g (ix1 a)) (Ideal.sqrt (Host.reduceAdd (F := Ideal) (mulf v v)
    (constant (F := Ideal) S_ .f32 0x00000000#32) reducesTo_S256x256_S256_d1 h_S_ (ix1 a))) = _
  rw [sumsq256_apply]

/-- The same host chain on a 512-row matrix: the result is 256 by 512. -/
def wnF512 (v : FVec Ideal S512x256 .f32) (g : FVec Ideal S512 .f32) : FVec Ideal S256x512 .f32 :=
  transpose S256x512 [1, 0] (mulf v (broadcastInDim S512x256 ![0, 1] bcast_S512x1_S512x256_0_1
    (broadcastInDim S512x1 ![0] bcast_S512_S512x1_0 (Host.divf g (Host.sqrt
      (Host.reduceAdd (mulf v v) (constant (F := Ideal) S_ .f32 0x00000000#32) reducesTo_S512x256_S512_d1 h_S_))))))
    transposes_S512x256_S256x512_1_0

/-- The row norm's radicand at row a of a 512-row matrix. -/
theorem sumsq512_apply (v : FVec Ideal S512x256 .f32) (a : Fin 512) :
    Host.reduceAdd (F := Ideal) (mulf v v) (constant (F := Ideal) S_ .f32 0x00000000#32) reducesTo_S512x256_S512_d1 h_S_ (ix1 a)
      = Cert.Film.zeroW + ∑ j : Fin 256, v (ix2 a j) * v (ix2 a j) := by
  generalize hy : mulf v v = y0
  simp only [Host.reduceAdd, Ideal.hostReduceAdd_def]
  rw [Ideal.hostReduceAdd_single reducesTo_S512x256_S512_d1 (by decide)]
  refine congrArg (_ + ·) (Finset.sum_congr rfl fun j _ => ?_)
  subst hy
  have e : (Shape.Reduces.lift (by decide : S512x256.Reduces [1] S512) (ix1 a) j : S512x256.Idx) = ix2 a j :=
    funext fun d => Fin.ext (by match d with | ⟨0, _⟩ => rfl | ⟨1, _⟩ => rfl)
  rw [e]
  rfl

/-- Entry (k, a) of the 512-row chain's result is entry (a, k) of the weight-normalised matrix. -/
theorem wnF512_apply (v : FVec Ideal S512x256 .f32) (g : FVec Ideal S512 .f32) (k : Fin 256) (a : Fin 512) :
    wnF512 v g (ix2 k a) = Cert.Film.wn (fun a b => v (ix2 a b)) (fun a => g (ix1 a)) a k := by
  unfold wnF512 Cert.Film.wn
  rw [transpose_apply [1, 0] _ transposes_S512x256_S256x512_1_0 (ix2 k a) (ix2 a k)
    (fun b => match b with | ⟨0, _⟩ => rfl | ⟨1, _⟩ => rfl)]
  rw [mulf_apply]
  rw [broadcastInDim_apply _ bcast_S512x1_S512x256_0_1 _ (ix2 a k) (ix2 a (0 : Fin 1)) (fun d => match d with
    | ⟨0, _⟩ => by show a.val = if (512 : Nat) = 1 then 0 else a.val; rw [if_neg (by decide)]
    | ⟨1, _⟩ => by show 0 = if (1 : Nat) = 1 then 0 else k.val; rw [if_pos rfl])]
  rw [broadcastInDim_apply _ bcast_S512_S512x1_0 _ (ix2 a (0 : Fin 1)) (ix1 a) (fun d => match d with
    | ⟨0, _⟩ => by show a.val = if (512 : Nat) = 1 then 0 else a.val; rw [if_neg (by decide)])]
  show v (ix2 a k) * Ideal.div (g (ix1 a)) (Ideal.sqrt (Host.reduceAdd (F := Ideal) (mulf v v)
    (constant (F := Ideal) S_ .f32 0x00000000#32) reducesTo_S512x256_S512_d1 h_S_ (ix1 a))) = _
  rw [sumsq512_apply]

/-! ## The per-graph table: the conditioning rows through the weight-normalised projection, plus bias -/

/-- The host operations that make the table from the conditioning rows, the projection's v and gain, and the bias. -/
def gbF (cond : FVec Ideal S256x256 .f32) (vc : FVec Ideal S512x256 .f32) (gc bc : FVec Ideal S512 .f32) :
    FVec Ideal S256x512 .f32 :=
  addf (Host.dotGeneral (F := Ideal) dot_S256x256_S256x512_S256x512_1_0_0_1_n_n none cond (wnF512 vc gc))
    (broadcastInDim S256x512 ![0, 1] bcast_S1x512_S256x512_0_1 (broadcastInDim S1x512 ![1] bcast_S512_S1x512_1 bc))

/-- The product's left operand index: row of the result, contraction coordinate. -/
theorem gb_lhs_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl
theorem gb_lhs_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
/-- The right operand index: contraction coordinate, column of the result. -/
theorem gb_rhs_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
theorem gb_rhs_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-- The product read at (g, j): the sum over the contraction coordinate of the left at (g, k) times the right at (k, j). -/
theorem gb_dot_apply (l : FVec Ideal S256x256 .f32) (r : FVec Ideal S256x512 .f32) (g : Fin 256) (j : Fin 512) :
    Host.dotGeneral (F := Ideal) dot_S256x256_S256x512_S256x512_1_0_0_1_n_n none l r (ix2 g j)
      = ∑ k : Fin 256, l (ix2 g k) * r (ix2 k j) := by
  simp only [Host.dotGeneral]
  rw [Ideal.dotGeneral_apply, ← Equiv.sum_comp (ValueIdx.contrEquiv1 dot_S256x256_S256x512_S256x512_1_0_0_1_n_n 256 rfl rfl).symm]
  refine Finset.sum_congr rfl fun k _ => ?_
  have hk := ValueIdx.contrEquiv1_symm_val dot_S256x256_S256x512_S256x512_1_0_0_1_n_n 256 rfl rfl k
  have el : dot_S256x256_S256x512_S256x512_1_0_0_1_n_n.lhsIdx (ix2 g j)
      ((ValueIdx.contrEquiv1 dot_S256x256_S256x512_S256x512_1_0_0_1_n_n 256 rfl rfl).symm k) = ix2 g k :=
    funext fun a => Fin.ext (by
      match a with
      | ⟨0, _⟩ => exact gb_lhs_0 _ _
      | ⟨1, _⟩ => exact (gb_lhs_1 _ _).trans hk)
  have er : dot_S256x256_S256x512_S256x512_1_0_0_1_n_n.rhsIdx (ix2 g j)
      ((ValueIdx.contrEquiv1 dot_S256x256_S256x512_S256x512_1_0_0_1_n_n 256 rfl rfl).symm k) = ix2 k j :=
    funext fun a => Fin.ext (by
      match a with
      | ⟨0, _⟩ => exact (gb_rhs_0 _ _).trans hk
      | ⟨1, _⟩ => exact gb_rhs_1 _ _)
  rw [el, er]

/-- Entry (g, j) of the table. -/
theorem gbF_apply (cond : FVec Ideal S256x256 .f32) (vc : FVec Ideal S512x256 .f32) (gc bc : FVec Ideal S512 .f32)
    (g : Fin 256) (j : Fin 512) :
    gbF cond vc gc bc (ix2 g j)
      = Cert.Film.gbOf (fun a k => cond (ix2 a k)) (fun a k => vc (ix2 a k)) (fun a => gc (ix1 a)) (fun a => bc (ix1 a)) g j := by
  unfold gbF Cert.Film.gbOf
  rw [addf_apply, gb_dot_apply]
  rw [broadcastInDim_apply _ bcast_S1x512_S256x512_0_1 _ (ix2 g j) (ix2 (0 : Fin 1) j) (fun d => match d with
    | ⟨0, _⟩ => by show 0 = if (1 : Nat) = 1 then 0 else g.val; rw [if_pos rfl]
    | ⟨1, _⟩ => by show j.val = if (512 : Nat) = 1 then 0 else j.val; rw [if_neg (by decide)])]
  rw [broadcastInDim_apply _ bcast_S512_S1x512_1 _ (ix2 (0 : Fin 1) j) (ix1 j) (fun d => match d with
    | ⟨0, _⟩ => by show j.val = if (512 : Nat) = 1 then 0 else j.val; rw [if_neg (by decide)])]
  refine congrArg (· + bc (ix1 j)) (Finset.sum_congr rfl fun k _ => ?_)
  rw [wnF512_apply]

end KHost

open KHost

/-! ## The five staged arrays when the region is entered -/

/-- The first layer's weights as staged: the transposed weight-normalised matrix of arguments 6 and 7. -/
theorem V_w1T (c : Dev nD) (k c' : Fin 256) :
    (Gen.V m c main_v6 : S256x256.Idx → EReal) (ix2 k c')
      = Cert.Film.wn (fun a b => (m ((c.tc : Thread nD τ).loc main_arg6) : S256x256.Idx → EReal) (ix2 a b))
          (fun a => (m ((c.tc : Thread nD τ).loc main_arg7) : S256.Idx → EReal) (ix1 a)) c' k := by
  have e : (Gen.V m c main_v6 : S256x256.Idx → EReal)
      = truncf .bf16 (wnF256 (m ((c.tc : Thread nD τ).loc main_arg6)) (m ((c.tc : Thread nD τ).loc main_arg7))) bitsLt_bf16_f32 := by
    dsimp only [Gen.V]
    simp only [Gen.hostOps0, Gen.hostOps0_1, Gen.hostOps0_2, Gen.hostOps0_3, Gen.hostOps0_4, Gen.hostOps0_5, Gen.hostOps0_6,
      Gen.hostOps0_7, List.flatten_cons, List.flatten_nil, List.append_nil, List.cons_append, List.nil_append]
    after_results_simp
    rfl
  exact (congrFun e (ix2 k c')).trans (wnF256_apply _ _ k c')

/-- The second layer's weights as staged: the transposed weight-normalised matrix of arguments 8 and 9. -/
theorem V_w2T (c : Dev nD) (k c' : Fin 256) :
    (Gen.V m c main_v13 : S256x256.Idx → EReal) (ix2 k c')
      = Cert.Film.wn (fun a b => (m ((c.tc : Thread nD τ).loc main_arg8) : S256x256.Idx → EReal) (ix2 a b))
          (fun a => (m ((c.tc : Thread nD τ).loc main_arg9) : S256.Idx → EReal) (ix1 a)) c' k := by
  have e : (Gen.V m c main_v13 : S256x256.Idx → EReal)
      = truncf .bf16 (wnF256 (m ((c.tc : Thread nD τ).loc main_arg8)) (m ((c.tc : Thread nD τ).loc main_arg9))) bitsLt_bf16_f32 := by
    dsimp only [Gen.V]
    simp only [Gen.hostOps0, Gen.hostOps0_1, Gen.hostOps0_2, Gen.hostOps0_3, Gen.hostOps0_4, Gen.hostOps0_5, Gen.hostOps0_6,
      Gen.hostOps0_7, List.flatten_cons, List.flatten_nil, List.append_nil, List.cons_append, List.nil_append]
    after_results_simp
    rfl
  exact (congrFun e (ix2 k c')).trans (wnF256_apply _ _ k c')

/-- The third layer's weights as staged: the transposed weight-normalised matrix of arguments 11 and 12. -/
theorem V_w3T (c : Dev nD) (k : Fin 256) (j : Fin 512) :
    (Gen.V m c main_v20 : S256x512.Idx → EReal) (ix2 k j)
      = Cert.Film.wn (fun a b => (m ((c.tc : Thread nD τ).loc main_arg11) : S512x256.Idx → EReal) (ix2 a b))
          (fun a => (m ((c.tc : Thread nD τ).loc main_arg12) : S512.Idx → EReal) (ix1 a)) j k := by
  have e : (Gen.V m c main_v20 : S256x512.Idx → EReal)
      = truncf .bf16 (wnF512 (m ((c.tc : Thread nD τ).loc main_arg11)) (m ((c.tc : Thread nD τ).loc main_arg12))) bitsLt_bf16_f32 := by
    dsimp only [Gen.V]
    simp only [Gen.hostOps0, Gen.hostOps0_1, Gen.hostOps0_2, Gen.hostOps0_3, Gen.hostOps0_4, Gen.hostOps0_5, Gen.hostOps0_6,
      Gen.hostOps0_7, List.flatten_cons, List.flatten_nil, List.append_nil, List.cons_append, List.nil_append]
    after_results_simp
    rfl
  exact (congrFun e (ix2 k j)).trans (wnF512_apply _ _ k j)

/-- The per-graph table as staged: the conditioning rows (argument 1) through the weight-normalised projection of
    arguments 3 and 4, plus the bias (argument 5). -/
theorem V_gb (c : Dev nD) (g : Fin 256) (j : Fin 512) :
    (Gen.V m c main_v30 : S256x512.Idx → EReal) (ix2 g j)
      = Cert.Film.gbOf (fun a k => (m ((c.tc : Thread nD τ).loc main_arg1) : S256x256.Idx → EReal) (ix2 a k))
          (fun a k => (m ((c.tc : Thread nD τ).loc main_arg3) : S512x256.Idx → EReal) (ix2 a k))
          (fun a => (m ((c.tc : Thread nD τ).loc main_arg4) : S512.Idx → EReal) (ix1 a))
          (fun a => (m ((c.tc : Thread nD τ).loc main_arg5) : S512.Idx → EReal) (ix1 a)) g j := by
  have e : (Gen.V m c main_v30 : S256x512.Idx → EReal)
      = gbF (m ((c.tc : Thread nD τ).loc main_arg1)) (m ((c.tc : Thread nD τ).loc main_arg3))
          (m ((c.tc : Thread nD τ).loc main_arg4)) (m ((c.tc : Thread nD τ).loc main_arg5)) := by
    dsimp only [Gen.V]
    simp only [Gen.hostOps0, Gen.hostOps0_1, Gen.hostOps0_2, Gen.hostOps0_3, Gen.hostOps0_4, Gen.hostOps0_5, Gen.hostOps0_6,
      Gen.hostOps0_7, List.flatten_cons, List.flatten_nil, List.append_nil, List.cons_append, List.nil_append]
    after_results_simp
    rfl
  exact (congrFun e (ix2 g j)).trans (gbF_apply _ _ _ _ g j)

/-- The index column as staged: the index array read at the same row. -/
theorem V_ids (c : Dev nD) (r : Fin 200000) :
    (Gen.V m c main_v31 : S200000x1.Idx → BitVec 32) (ix2 r (0 : Fin 1))
      = (m ((c.tc : Thread nD τ).loc main_arg2) : S200000.Idx → BitVec 32) (ix1 r) := by
  have e : (Gen.V m c main_v31 : S200000x1.Idx → BitVec 32)
      = shapeCast S200000x1 (m ((c.tc : Thread nD τ).loc main_arg2) : S200000.Idx → BitVec 32) shapeCasts_S200000_S200000x1 := by
    dsimp only [Gen.V]
    simp only [Gen.hostOps0, Gen.hostOps0_1, Gen.hostOps0_2, Gen.hostOps0_3, Gen.hostOps0_4, Gen.hostOps0_5, Gen.hostOps0_6,
      Gen.hostOps0_7, List.flatten_cons, List.flatten_nil, List.append_nil, List.cons_append, List.nil_append]
    after_results_simp
    rfl
  refine (congrFun e (ix2 r (0 : Fin 1))).trans
    (shapeCast_apply _ shapeCasts_S200000_S200000x1 (ix2 r (0 : Fin 1)) (ix1 r) ?_)
  rw [Shape.rowMajor_val_one, Shape.rowMajor_val_two]
  show r.val = r.val * 1 + 0
  omega

end Cert.KernelIdeal.Hand

end
-- ==== Proof.Bridge.lean ====
/-
  The one-row network of the arrays the kernel's windows stage, against the one-row network of the argument arrays.
  Three staged arrays are the argument arrays themselves (the rows, the second layer's bias, the third layer's bias);
  three are the transposed weight-normalised matrices of an argument matrix and an argument gain; one is the
  per-graph table of the conditioning rows through the weight-normalised projection plus bias; one is the index
  array laid out as a column. Entry by entry these are the data the whole network on a row is defined from, so the
  first arrangement of a row over the staged arrays is the first arrangement of the whole network over the arguments.
-/
import proofs.«421625_j75952201663101_2_alg».proof.Proof.KHost
import proofs.«421625_j75952201663101_2_alg».proof.Proof.Spec
import proofs.«421625_j75952201663101_2_alg».proof.Proof.Gen.KernelIdeal.Frame
import Idealize.ShloMosaic.Lib.ValueIdx

noncomputable section

namespace Cert.KernelIdeal.Hand

open Idealize.ShloMosaic Idealize.ShloMosaic.TcCoe Idealize.SL.Sem
open Cert.KernelIdeal Cert.KernelIdeal.Gen
open ValueIdx

variable (m : (ℓ : Loc nD τ sig) → Buf (Elt Ideal) ℓ)

/-- The one-row network depends on its eight data only through their values. -/
private theorem rowK_congr {x x' : Fin 256 → EReal} {id id' : BitVec 32} {gb gb' : Fin 256 → Fin 512 → EReal}
    {w1 w1' w2 w2' : Fin 256 → Fin 256 → EReal} {b2 b2' : Fin 256 → EReal} {w3 w3' : Fin 256 → Fin 512 → EReal}
    {b3 b3' : Fin 512 → EReal} (hx : ∀ k, x k = x' k) (hid : id = id') (hgb : ∀ g j, gb g j = gb' g j)
    (h1 : ∀ k c, w1 k c = w1' k c) (h2 : ∀ k c, w2 k c = w2' k c) (hb2 : ∀ c, b2 c = b2' c)
    (h3 : ∀ k j, w3 k j = w3' k j) (hb3 : ∀ j, b3 j = b3' j) :
    Cert.Film.rowK x id gb w1 w2 b2 w3 b3 = Cert.Film.rowK x' id' gb' w1' w2' b2' w3' b3' := by
  have ex : x = x' := funext hx
  have egb : gb = gb' := funext fun g => funext fun j => hgb g j
  have e1 : w1 = w1' := funext fun k => funext fun c => h1 k c
  have e2 : w2 = w2' := funext fun k => funext fun c => h2 k c
  have eb2 : b2 = b2' := funext hb2
  have e3 : w3 = w3' := funext fun k => funext fun j => h3 k j
  have eb3 : b3 = b3' := funext hb3
  rw [ex, hid, egb, e1, e2, eb2, e3, eb3]

/-- The same with the row and the column given as coordinates. -/
private theorem rowK_V_eq_at (c : Dev nD) (r : Fin 200000) (q : Fin 512) :
    Cert.Film.rowK (fun k => (Gen.V m c main_arg0 : S200000x256.Idx → EReal) (ix2 r k)) ((Gen.V m c main_v31 : S200000x1.Idx → BitVec 32) (ix2 r (0 : Fin 1)))
      (fun g j => (Gen.V m c main_v30 : S256x512.Idx → EReal) (ix2 g j)) (fun k c' => (Gen.V m c main_v6 : S256x256.Idx → EReal) (ix2 k c')) (fun k c' => (Gen.V m c main_v13 : S256x256.Idx → EReal) (ix2 k c'))
      (fun c' => (Gen.V m c main_arg10 : S256.Idx → EReal) (ix1 c')) (fun k j => (Gen.V m c main_v20 : S256x512.Idx → EReal) (ix2 k j)) (fun j => (Gen.V m c main_arg13 : S512.Idx → EReal) (ix1 j)) q
    = Cert.Film.netK (fun k => (m ((c.tc : Thread nD τ).loc main_arg0) : S200000x256.Idx → EReal) (ix2 r k)) ((m ((c.tc : Thread nD τ).loc main_arg2) : S200000.Idx → BitVec 32) (ix1 r))
        (fun a k => (m ((c.tc : Thread nD τ).loc main_arg1) : S256x256.Idx → EReal) (ix2 a k)) (fun a k => (m ((c.tc : Thread nD τ).loc main_arg3) : S512x256.Idx → EReal) (ix2 a k))
        (fun a => (m ((c.tc : Thread nD τ).loc main_arg4) : S512.Idx → EReal) (ix1 a)) (fun a => (m ((c.tc : Thread nD τ).loc main_arg5) : S512.Idx → EReal) (ix1 a))
        (fun a k => (m ((c.tc : Thread nD τ).loc main_arg6) : S256x256.Idx → EReal) (ix2 a k)) (fun a => (m ((c.tc : Thread nD τ).loc main_arg7) : S256.Idx → EReal) (ix1 a))
        (fun a k => (m ((c.tc : Thread nD τ).loc main_arg8) : S256x256.Idx → EReal) (ix2 a k)) (fun a => (m ((c.tc : Thread nD τ).loc main_arg9) : S256.Idx → EReal) (ix1 a)) (fun a => (m ((c.tc : Thread nD τ).loc main_arg10) : S256.Idx → EReal) (ix1 a))
        (fun a k => (m ((c.tc : Thread nD τ).loc main_arg11) : S512x256.Idx → EReal) (ix2 a k)) (fun a => (m ((c.tc : Thread nD τ).loc main_arg12) : S512.Idx → EReal) (ix1 a)) (fun a => (m ((c.tc : Thread nD τ).loc main_arg13) : S512.Idx → EReal) (ix1 a)) q := by
  unfold Cert.Film.netK
  exact congrFun (rowK_congr (fun k => congrFun (Gen.V_main_arg0 m c) _) (V_ids m c r) (fun g j => V_gb m c g j)
    (fun k c' => V_w1T m c k c') (fun k c' => V_w2T m c k c') (fun c' => congrFun (Gen.V_main_arg10 m c) _)
    (fun k j => V_w3T m c k j) (fun j => congrFun (Gen.V_main_arg13 m c) _)) q

/-- The one-row network of the arrays the kernel's windows stage is the one-row network of the argument arrays: the staged arrays are the host's weight-normalised matrices, table and reshaped index column of the arguments. -/
theorem rowK_V_eq (c : Dev nD) (i : S200000x512.Idx) :
    Cert.Film.rowK (fun k => (Gen.V m c main_arg0 : S200000x256.Idx → EReal) (ix2 (i 0 : Fin 200000) k)) ((Gen.V m c main_v31 : S200000x1.Idx → BitVec 32) (ix2 (i 0 : Fin 200000) (0 : Fin 1)))
      (fun g j => (Gen.V m c main_v30 : S256x512.Idx → EReal) (ix2 g j)) (fun k c' => (Gen.V m c main_v6 : S256x256.Idx → EReal) (ix2 k c')) (fun k c' => (Gen.V m c main_v13 : S256x256.Idx → EReal) (ix2 k c'))
      (fun c' => (Gen.V m c main_arg10 : S256.Idx → EReal) (ix1 c')) (fun k j => (Gen.V m c main_v20 : S256x512.Idx → EReal) (ix2 k j)) (fun j => (Gen.V m c main_arg13 : S512.Idx → EReal) (ix1 j)) (i 1 : Fin 512)
    = Cert.Film.netOutK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) i := by
  exact rowK_V_eq_at m c (i 0) (i 1)

end Cert.KernelIdeal.Hand

end
-- ==== Proof.RefHost.lean ====
/-
  The reference's weight matrices and per-graph table, read at an index over the extended reals: each
  weight-normalised matrix transposed is the weight normalisation of its two arguments with the indices swapped,
  and the table is the conditioning rows through the weight-normalised projection plus the bias.

  Each weight stage is a chain of entrywise steps and index shuffles: the transpose swaps the two indices, the
  product reads the matrix entry and a row scale, the row scale is broadcast from a vector over the rows (so its
  column index is dropped), the vector is the quotient of the gain by the row's norm, and the norm is the square
  root of zero plus the sum over the row of the squared entries. Reading the chain at (k, c) therefore gives entry
  (c, k) of the matrix times gain c over the norm of row c, which is the weight normalisation as defined, term for
  term. The table adds to this one contraction over the 256 columns and a bias broadcast along the rows.
-/
import proofs.«421625_j75952201663101_2_alg».proof.Proof.Gen.ReferenceIdeal.Read
import proofs.«421625_j75952201663101_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Read

/-- The first layer's weights, contraction index first. -/
theorem ref_w1T (x6 : S256x256.Idx → EReal) (x7 : S256.Idx → EReal) (k c : Fin 256) :
    val_main_v19 (F := Ideal) x6 x7 (ix2 k c) = Cert.Film.wn (fun a b => x6 (ix2 a b)) (fun a => x7 (ix1 a)) c k := by
  -- peel the stages from the transpose down to the sum of squares
  rw [val_main_v19_apply, val_main_v18_apply, val_main_v17_apply, val_main_v16_apply, val_main_v15_apply,
    val_main_v14_apply, val_main_call1_v1_apply]
  -- the transpose reads entry (c, k)
  have eT : idx_main_v19 (ix2 k c) = ix2 c k :=
    funext fun a => Fin.ext (by match a with | ⟨0, _⟩ => rfl | ⟨1, _⟩ => rfl)
  -- the two broadcasts read the row scale at c, whatever the column
  have eB : idx_main_v16 (idx_main_v17 (ix2 c k)) = ix1 c :=
    funext fun a => Fin.ext (by match a with | ⟨0, _⟩ => rfl)
  -- the sum of squares of row c runs over the entries (c, q)
  have eR : ∀ q : Fin 256, idx_main_call1_v1 (ix1 c) q = ix2 c q := fun q =>
    funext fun a => Fin.ext (by match a with | ⟨0, _⟩ => rfl | ⟨1, _⟩ => rfl)
  simp only [eT, eB, eR, val_main_call1_v0_apply, val_main_call1_cst_apply, Ideal.mulf_def, Ideal.hostDivf_def,
    Ideal.hostUnary_sqrt_def, Ideal.ofBits_def]
  rfl

/-- The second layer's weights. -/
theorem ref_w2T (x8 : S256x256.Idx → EReal) (x9 : S256.Idx → EReal) (k c : Fin 256) :
    val_main_v61 (F := Ideal) x8 x9 (ix2 k c) = Cert.Film.wn (fun a b => x8 (ix2 a b)) (fun a => x9 (ix1 a)) c k := by
  -- peel the stages from the transpose down to the sum of squares
  rw [val_main_v61_apply, val_main_v60_apply, val_main_v59_apply, val_main_v58_apply, val_main_v57_apply,
    val_main_v56_apply, val_main_call3_v1_apply]
  -- the transpose reads entry (c, k)
  have eT : idx_main_v61 (ix2 k c) = ix2 c k :=
    funext fun a => Fin.ext (by match a with | ⟨0, _⟩ => rfl | ⟨1, _⟩ => rfl)
  -- the two broadcasts read the row scale at c, whatever the column
  have eB : idx_main_v58 (idx_main_v59 (ix2 c k)) = ix1 c :=
    funext fun a => Fin.ext (by match a with | ⟨0, _⟩ => rfl)
  -- the sum of squares of row c runs over the entries (c, q)
  have eR : ∀ q : Fin 256, idx_main_call3_v1 (ix1 c) q = ix2 c q := fun q =>
    funext fun a => Fin.ext (by match a with | ⟨0, _⟩ => rfl | ⟨1, _⟩ => rfl)
  simp only [eT, eB, eR, val_main_call3_v0_apply, val_main_call3_cst_apply, Ideal.mulf_def, Ideal.hostDivf_def,
    Ideal.hostUnary_sqrt_def, Ideal.ofBits_def]
  rfl

/-- The third layer's weights. -/
theorem ref_w3T (x11 : S512x256.Idx → EReal) (x12 : S512.Idx → EReal) (k : Fin 256) (j : Fin 512) :
    val_main_v72 (F := Ideal) x11 x12 (ix2 k j) = Cert.Film.wn (fun a b => x11 (ix2 a b)) (fun a => x12 (ix1 a)) j k := by
  -- peel the stages from the transpose down to the sum of squares
  rw [val_main_v72_apply, val_main_v71_apply, val_main_v70_apply, val_main_v69_apply, val_main_v68_apply,
    val_main_v67_apply, val_main_call5_v1_apply]
  -- the transpose reads entry (j, k)
  have eT : idx_main_v72 (ix2 k j) = ix2 j k :=
    funext fun a => Fin.ext (by match a with | ⟨0, _⟩ => rfl | ⟨1, _⟩ => rfl)
  -- the two broadcasts read the row scale at j, whatever the column
  have eB : idx_main_v69 (idx_main_v70 (ix2 j k)) = ix1 j :=
    funext fun a => Fin.ext (by match a with | ⟨0, _⟩ => rfl)
  -- the sum of squares of row j runs over the entries (j, q)
  have eR : ∀ q : Fin 256, idx_main_call5_v1 (ix1 j) q = ix2 j q := fun q =>
    funext fun a => Fin.ext (by match a with | ⟨0, _⟩ => rfl | ⟨1, _⟩ => rfl)
  simp only [eT, eB, eR, val_main_call5_v0_apply, val_main_call5_cst_apply, Ideal.mulf_def, Ideal.hostDivf_def,
    Ideal.hostUnary_sqrt_def, Ideal.ofBits_def]
  rfl

/-- The projection's weights that make the per-graph table. -/
theorem ref_wcT (x3 : S512x256.Idx → EReal) (x4 : S512.Idx → EReal) (k : Fin 256) (j : Fin 512) :
    val_main_v5 (F := Ideal) x3 x4 (ix2 k j) = Cert.Film.wn (fun a b => x3 (ix2 a b)) (fun a => x4 (ix1 a)) j k := by
  -- peel the stages from the transpose down to the sum of squares
  rw [val_main_v5_apply, val_main_v4_apply, val_main_v3_apply, val_main_v2_apply, val_main_v1_apply,
    val_main_v0_apply, val_main_call0_v1_apply]
  -- the transpose reads entry (j, k)
  have eT : idx_main_v5 (ix2 k j) = ix2 j k :=
    funext fun a => Fin.ext (by match a with | ⟨0, _⟩ => rfl | ⟨1, _⟩ => rfl)
  -- the two broadcasts read the row scale at j, whatever the column
  have eB : idx_main_v2 (idx_main_v3 (ix2 j k)) = ix1 j :=
    funext fun a => Fin.ext (by match a with | ⟨0, _⟩ => rfl)
  -- the sum of squares of row j runs over the entries (j, q)
  have eR : ∀ q : Fin 256, idx_main_call0_v1 (ix1 j) q = ix2 j q := fun q =>
    funext fun a => Fin.ext (by match a with | ⟨0, _⟩ => rfl | ⟨1, _⟩ => rfl)
  simp only [eT, eB, eR, val_main_call0_v0_apply, val_main_call0_cst_apply, Ideal.mulf_def, Ideal.hostDivf_def,
    Ideal.hostUnary_sqrt_def, Ideal.ofBits_def]
  rfl

/-- The per-graph table. -/
theorem ref_gb (x1 : S256x256.Idx → EReal) (x3 : S512x256.Idx → EReal) (x4 x5 : S512.Idx → EReal) (g : Fin 256) (j : Fin 512) :
    val_main_v9 (F := Ideal) x1 x3 x4 x5 (ix2 g j)
      = Cert.Film.gbOf (fun a k => x1 (ix2 a k)) (fun a k => x3 (ix2 a k)) (fun a => x4 (ix1 a)) (fun a => x5 (ix1 a)) g j := by
  -- the table is the contraction plus the bias, the bias broadcast along the rows
  rw [val_main_v9_apply, val_main_v6_apply, val_main_v8_apply, val_main_v7_apply]
  -- the bias is read at column j, whatever the row
  have eb : idx_main_v7 (idx_main_v8 (ix2 g j)) = ix1 j :=
    funext fun a => Fin.ext (by match a with | ⟨0, _⟩ => rfl)
  -- term k of the contraction is entry (g, k) of the conditioning rows times entry (k, j) of the weights
  have el : ∀ k : Fin 256, lidx_main_v6 (ix2 g j) k = ix2 g k := fun k =>
    funext fun a => Fin.ext (by match a with | ⟨0, _⟩ => rfl | ⟨1, _⟩ => rfl)
  have er : ∀ k : Fin 256, ridx_main_v6 (ix2 g j) k = ix2 k j := fun k =>
    funext fun a => Fin.ext (by match a with | ⟨0, _⟩ => rfl | ⟨1, _⟩ => rfl)
  simp only [eb, el, er, ref_wcT, Ideal.addf_def]
  rfl

end Cert.ReferenceIdeal.RefValue

end
-- ==== Proof.RefRow.lean ====
/-
  The reference's result, read row by row over the extended reals: entry (r, q) of the result array is the one-row
  network, in the arrangement that divides by the square root and reads the table row at its index, applied to row r
  of the input with the table row that row's index word names.
-/
import proofs.«421625_j75952201663101_2_alg».proof.Proof.Gen.ReferenceIdeal.Read
import proofs.«421625_j75952201663101_2_alg».proof.Proof.Spec
import proofs.«421625_j75952201663101_2_alg».proof.Proof.RefHost
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Read

/-- The row gather read at (r, c): the table at the row the start index of r names (read signed, clamped into
    0..255), column c. -/
private theorem gather_row {α : Type} (T : S256x256.Idx → α) (idx : IVec S200000x1 32) (r : Fin 200000) (c : Fin 256) :
    Host.gather gather_S256x256_S200000x1_S200000x256_1_0_n_n_0_1_1256 T idx (ix2 r c)
      = T (ix2 (⟨min (idx (ix2 r (0 : Fin 1))).toInt.toNat 255, by omega⟩ : Fin 256) c) := by
  unfold Host.gather
  congr 1
  funext a
  refine Fin.ext ?_
  match a with
  | ⟨0, _⟩ =>
    -- the collapsed axis: the clamped start index, no batching and no offset coordinate
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x256_S200000x1_S200000x256_1_0_n_n_0_1_1256.startIndexMap from
      List.mem_singleton.mpr rfl)]
    have hsi : gather_S256x256_S200000x1_S200000x256_1_0_n_n_0_1_1256.siIdx (ix2 r c)
        ⟨List.idxOf (0 : Fin 2) gather_S256x256_S200000x1_S200000x256_1_0_n_n_0_1_1256.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start and batching coordinate vanish, the offset coordinate is the result's column
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S256x256_S200000x1_S200000x256_1_0_n_n_0_1_1256.startIndexMap by decide)]
    unfold GatherDims.offCoord
    rw [dif_pos (show (1 : Fin 2) ∈ gather_S256x256_S200000x1_S200000x256_1_0_n_n_0_1_1256.sKept by decide)]
    simp only [Nat.zero_add]
    rfl

/-- An index word between 0 and 255, read signed and clamped into 0..255, is the word itself below 256. -/
private theorem clamp_eq (id : BitVec 32) (h0 : 0 ≤ id.toInt) (h1 : id.toInt < 256) : min id.toInt.toNat 255 = id.toNat % 256 := by
  have hlt : id.toNat < 2 ^ 32 := id.isLt
  rw [BitVec.toInt_eq_toNat_cond] at h0 h1 ⊢
  split at h0 <;> omega

section Layers

variable (x0 : S200000x256.Idx → EReal) (x1 : S256x256.Idx → EReal) (x2 : S200000.Idx → BitVec 32)
  (x3 : S512x256.Idx → EReal) (x4 x5 : S512.Idx → EReal) (x6 : S256x256.Idx → EReal) (x7 : S256.Idx → EReal)
  (x8 : S256x256.Idx → EReal) (x9 x10 : S256.Idx → EReal) (x11 : S512x256.Idx → EReal) (x12 x13 : S512.Idx → EReal)

/-- Row r through the first linear layer. -/
private abbrev rowH1 (r : Fin 200000) (c : Fin 256) : EReal :=
  ∑ k, x0 (ix2 r k) * Cert.Film.wn (fun a b => x6 (ix2 a b)) (fun a => x7 (ix1 a)) c k

/-- The per-graph table of the arguments. -/
private abbrev tableGB : Fin 256 → Fin 512 → EReal :=
  Cert.Film.gbOf (fun a k => x1 (ix2 a k)) (fun a k => x3 (ix2 a k)) (fun a => x4 (ix1 a)) (fun a => x5 (ix1 a))

/-- The first linear layer at (r, c). -/
private theorem v20_at (r : Fin 200000) (c : Fin 256) :
    val_main_v20 (F := Ideal) x0 x6 x7 (ix2 r c) = rowH1 x0 x6 x7 r c := by
  rw [val_main_v20_apply]
  refine Finset.sum_congr rfl fun k _ => ?_
  have el : lidx_main_v20 (ix2 r c) k = ix2 r k := funext fun a => by
    match a with | ⟨0, _⟩ => rfl | ⟨1, _⟩ => rfl
  have er : ridx_main_v20 (ix2 r c) k = ix2 k c := funext fun a => by
    match a with | ⟨0, _⟩ => rfl | ⟨1, _⟩ => rfl
  rw [el, er, ref_w1T]

/-- The row mean at r. -/
private theorem v24_at (r : Fin 200000) :
    val_main_v24 (F := Ideal) x0 x6 x7 (ix2 r (0 : Fin 1)) = Cert.Film.mean (rowH1 x0 x6 x7 r) := by
  rw [val_main_v24_apply, val_main_v22_apply, val_main_v23_apply, val_main_cst_1_apply, val_main_v21_apply,
    val_main_cst_0_apply]
  have e : idx_main_v22 (ix2 r (0 : Fin 1)) = ix1 r := funext fun a => by
    match a with | ⟨0, _⟩ => rfl
  simp only [e, Ideal.hostDivf_def, Ideal.ofBits_def, Ideal.ofBits_zero_f32, zero_add]
  unfold Cert.Film.mean
  congr 1
  refine Finset.sum_congr rfl fun k _ => ?_
  have e2 : idx_main_v21 (ix1 r) k = ix2 r k := funext fun a => by
    match a with | ⟨0, _⟩ => rfl | ⟨1, _⟩ => rfl
  rw [e2, v20_at]

/-- The centred row at (r, c): the entry less the row mean (the first of the two places the program forms it). -/
private theorem v26_at (r : Fin 200000) (c : Fin 256) :
    val_main_v26 (F := Ideal) x0 x6 x7 (ix2 r c) = Cert.Film.cen (rowH1 x0 x6 x7 r) c := by
  rw [val_main_v26_apply, val_main_v25_apply, v20_at]
  have e : idx_main_v25 (ix2 r c) = ix2 r (0 : Fin 1) := funext fun a => by
    match a with | ⟨0, _⟩ => rfl | ⟨1, _⟩ => rfl
  rw [e, v24_at]
  rfl

/-- The centred row at (r, c) again (the second place the program forms it, the one the quotient reads). -/
private theorem v33_at (r : Fin 200000) (c : Fin 256) :
    val_main_v33 (F := Ideal) x0 x6 x7 (ix2 r c) = Cert.Film.cen (rowH1 x0 x6 x7 r) c := by
  rw [val_main_v33_apply, val_main_v32_apply, v20_at]
  have e : idx_main_v32 (ix2 r c) = ix2 r (0 : Fin 1) := funext fun a => by
    match a with | ⟨0, _⟩ => rfl | ⟨1, _⟩ => rfl
  rw [e, v24_at]
  rfl

/-- The row variance at r. -/
private theorem v31_at (r : Fin 200000) :
    val_main_v31 (F := Ideal) x0 x6 x7 (ix2 r (0 : Fin 1)) = Cert.Film.var (rowH1 x0 x6 x7 r) := by
  rw [val_main_v31_apply, val_main_v29_apply, val_main_v30_apply, val_main_cst_3_apply, val_main_v28_apply,
    val_main_cst_2_apply]
  have e : idx_main_v29 (ix2 r (0 : Fin 1)) = ix1 r := funext fun a => by
    match a with | ⟨0, _⟩ => rfl
  simp only [e, Ideal.hostDivf_def, Ideal.ofBits_def, Ideal.ofBits_zero_f32, zero_add]
  unfold Cert.Film.var Cert.Film.mean
  congr 1
  refine Finset.sum_congr rfl fun k _ => ?_
  have e2 : idx_main_v28 (ix1 r) k = ix2 r k := funext fun a => by
    match a with | ⟨0, _⟩ => rfl | ⟨1, _⟩ => rfl
  rw [e2, val_main_v27_apply, v26_at]
  rfl

/-- The normalised row at (r, c): the centred entry over the square root of the shifted variance. -/
private theorem v38_at (r : Fin 200000) (c : Fin 256) :
    val_main_v38 (F := Ideal) x0 x6 x7 (ix2 r c) = Cert.Film.lnR (rowH1 x0 x6 x7 r) c := by
  rw [val_main_v38_apply, val_main_v37_apply, val_main_v36_apply, val_main_v35_apply, val_main_v34_apply,
    val_main_cst_4_apply, v33_at]
  have e : idx_main_v37 (ix2 r c) = ix2 r (0 : Fin 1) := funext fun a => by
    match a with | ⟨0, _⟩ => rfl | ⟨1, _⟩ => rfl
  rw [e, v31_at]
  rfl

/-- The index normalisation leaves a non-negative index word as it is. -/
private theorem v43_at (hids : ∀ i, 0 ≤ (x2 i).toInt ∧ (x2 i).toInt < 256) (r : Fin 200000) :
    val_main_v43 (F := Ideal) x2 (ix1 r) = x2 (ix1 r) := by
  rw [val_main_v43_apply, val_main_v40_apply, val_main_v39_apply, val_main_c_apply]
  have h : IntOp.cmpi .slt (x2 (ix1 r)) 0#32 = 0#1 := eq_zero_of_ne_one fun h1 => by
    have h2 := IntOp.cmpi_slt.mp h1
    rw [BitVec.toInt_zero] at h2
    exact absurd (hids (ix1 r)).1 (not_le.mpr h2)
  rw [h, select_zero]

/-- The same for the second copy of the index normalisation, the one the shift rows are read through. -/
private theorem v51_at (hids : ∀ i, 0 ≤ (x2 i).toInt ∧ (x2 i).toInt < 256) (r : Fin 200000) :
    val_main_v51 (F := Ideal) x2 (ix1 r) = x2 (ix1 r) := by
  rw [val_main_v51_apply, val_main_v48_apply, val_main_v47_apply, val_main_c_6_apply]
  have h : IntOp.cmpi .slt (x2 (ix1 r)) 0#32 = 0#1 := eq_zero_of_ne_one fun h1 => by
    have h2 := IntOp.cmpi_slt.mp h1
    rw [BitVec.toInt_zero] at h2
    exact absurd (hids (ix1 r)).1 (not_le.mpr h2)
  rw [h, select_zero]

/-- The scale table (first half of the per-graph table, plus one) at (g, c). -/
private theorem v12_at (g c : Fin 256) :
    val_main_v12 (F := Ideal) x1 x3 x4 x5 (ix2 g c) = tableGB x1 x3 x4 x5 g (Cert.Film.lo c) + Cert.Film.oneW := by
  rw [val_main_v12_apply, val_main_v10_apply, val_main_v11_apply, val_main_cst_apply]
  have e : idx_main_v10 (ix2 g c) = ix2 g (Cert.Film.lo c) := funext fun a => by
    match a with | ⟨0, _⟩ => rfl | ⟨1, _⟩ => rfl
  rw [e, ref_gb]
  rfl

/-- The shift table (second half of the per-graph table) at (g, c). -/
private theorem v13_at (g c : Fin 256) :
    val_main_v13 (F := Ideal) x1 x3 x4 x5 (ix2 g c) = tableGB x1 x3 x4 x5 g (Cert.Film.hi c) := by
  rw [val_main_v13_apply]
  have e : idx_main_v13 (ix2 g c) = ix2 g (Cert.Film.hi c) := funext fun a => by
    match a with | ⟨0, _⟩ => rfl | ⟨1, _⟩ => rfl
  rw [e, ref_gb]

/-- The gathered scale row at (r, c): the scale table at the row the index word of r names. -/
private theorem v45_at (hids : ∀ i, 0 ≤ (x2 i).toInt ∧ (x2 i).toInt < 256) (r : Fin 200000) (c : Fin 256) :
    val_main_v45 (F := Ideal) x1 x2 x3 x4 x5 (ix2 r c)
      = tableGB x1 x3 x4 x5 (Cert.Film.idcOf (x2 (ix1 r))) (Cert.Film.lo c) + Cert.Film.oneW := by
  unfold val_main_v45
  rw [gather_row]
  have e : idx_main_v44 (ix2 r (0 : Fin 1)) = ix1 r := funext fun a => by
    match a with | ⟨0, _⟩ => rfl
  have hv : val_main_v44 (F := Ideal) x2 (ix2 r (0 : Fin 1)) = x2 (ix1 r) := by
    rw [val_main_v44_apply, e, v43_at x2 hids]
  have hrow : (⟨min (val_main_v44 (F := Ideal) x2 (ix2 r (0 : Fin 1))).toInt.toNat 255, by omega⟩ : Fin 256)
      = Cert.Film.idcOf (x2 (ix1 r)) := by
    refine Fin.ext ?_
    show min (val_main_v44 (F := Ideal) x2 (ix2 r (0 : Fin 1))).toInt.toNat 255 = (x2 (ix1 r)).toNat % 256
    rw [hv]
    exact clamp_eq _ (hids _).1 (hids _).2
  rw [hrow, v12_at]

/-- The gathered shift row at (r, c). -/
private theorem v53_at (hids : ∀ i, 0 ≤ (x2 i).toInt ∧ (x2 i).toInt < 256) (r : Fin 200000) (c : Fin 256) :
    val_main_v53 (F := Ideal) x1 x2 x3 x4 x5 (ix2 r c)
      = tableGB x1 x3 x4 x5 (Cert.Film.idcOf (x2 (ix1 r))) (Cert.Film.hi c) := by
  unfold val_main_v53
  rw [gather_row]
  have e : idx_main_v52 (ix2 r (0 : Fin 1)) = ix1 r := funext fun a => by
    match a with | ⟨0, _⟩ => rfl
  have hv : val_main_v52 (F := Ideal) x2 (ix2 r (0 : Fin 1)) = x2 (ix1 r) := by
    rw [val_main_v52_apply, e, v51_at x2 hids]
  have hrow : (⟨min (val_main_v52 (F := Ideal) x2 (ix2 r (0 : Fin 1))).toInt.toNat 255, by omega⟩ : Fin 256)
      = Cert.Film.idcOf (x2 (ix1 r)) := by
    refine Fin.ext ?_
    show min (val_main_v52 (F := Ideal) x2 (ix2 r (0 : Fin 1))).toInt.toNat 255 = (x2 (ix1 r)).toNat % 256
    rw [hv]
    exact clamp_eq _ (hids _).1 (hids _).2
  rw [hrow, v13_at]

/-- Row r modulated and rectified. -/
private abbrev rowH (r : Fin 200000) (c : Fin 256) : EReal :=
  max (Cert.Film.lnR (rowH1 x0 x6 x7 r) c
      * (tableGB x1 x3 x4 x5 (Cert.Film.idcOf (x2 (ix1 r))) (Cert.Film.lo c) + Cert.Film.oneW)
    + tableGB x1 x3 x4 x5 (Cert.Film.idcOf (x2 (ix1 r))) (Cert.Film.hi c)) Cert.Film.zeroW

/-- The modulated, rectified row at (r, c). -/
private theorem v55_at (hids : ∀ i, 0 ≤ (x2 i).toInt ∧ (x2 i).toInt < 256) (r : Fin 200000) (c : Fin 256) :
    val_main_v55 (F := Ideal) x0 x1 x2 x3 x4 x5 x6 x7 (ix2 r c) = rowH x0 x1 x2 x3 x4 x5 x6 x7 r c := by
  rw [val_main_v55_apply, val_main_v54_apply, val_main_v46_apply, val_main_call2_v0_apply, val_main_call2_cst_apply,
    v38_at, v45_at x1 x2 x3 x4 x5 hids, v53_at x1 x2 x3 x4 x5 hids]
  rfl

/-- Row r through the second linear layer with bias, rectified. -/
private abbrev rowH2 (r : Fin 200000) (k : Fin 256) : EReal :=
  max ((∑ k', rowH x0 x1 x2 x3 x4 x5 x6 x7 r k' * Cert.Film.wn (fun a b => x8 (ix2 a b)) (fun a => x9 (ix1 a)) k k')
    + x10 (ix1 k)) Cert.Film.zeroW

/-- The second layer at (r, k). -/
private theorem v66_at (hids : ∀ i, 0 ≤ (x2 i).toInt ∧ (x2 i).toInt < 256) (r : Fin 200000) (k : Fin 256) :
    val_main_v66 (F := Ideal) x0 x1 x2 x3 x4 x5 x6 x7 x8 x9 x10 (ix2 r k)
      = rowH2 x0 x1 x2 x3 x4 x5 x6 x7 x8 x9 x10 r k := by
  rw [val_main_v66_apply, val_main_v65_apply, val_main_call4_v0_apply, val_main_call4_cst_apply, val_main_v62_apply,
    val_main_v64_apply, val_main_v63_apply]
  have eb : idx_main_v63 (idx_main_v64 (ix2 r k)) = ix1 k := funext fun a => by
    match a with | ⟨0, _⟩ => rfl
  have es : (∑ k' : Fin 256, val_main_v55 (F := Ideal) x0 x1 x2 x3 x4 x5 x6 x7 (lidx_main_v62 (ix2 r k) k')
        * val_main_v61 (F := Ideal) x8 x9 (ridx_main_v62 (ix2 r k) k'))
      = ∑ k', rowH x0 x1 x2 x3 x4 x5 x6 x7 r k' * Cert.Film.wn (fun a b => x8 (ix2 a b)) (fun a => x9 (ix1 a)) k k' := by
    refine Finset.sum_congr rfl fun k' _ => ?_
    have el : lidx_main_v62 (ix2 r k) k' = ix2 r k' := funext fun a => by
      match a with | ⟨0, _⟩ => rfl | ⟨1, _⟩ => rfl
    have er : ridx_main_v62 (ix2 r k) k' = ix2 k' k := funext fun a => by
      match a with | ⟨0, _⟩ => rfl | ⟨1, _⟩ => rfl
    rw [el, er, v55_at x0 x1 x2 x3 x4 x5 x6 x7 hids, ref_w2T]
  rw [eb, es]
  rfl

/-- The result at (r, q): the third linear layer with bias. -/
private theorem v76_at (hids : ∀ i, 0 ≤ (x2 i).toInt ∧ (x2 i).toInt < 256) (r : Fin 200000) (q : Fin 512) :
    val_main_v76 (F := Ideal) x0 x1 x2 x3 x4 x5 x6 x7 x8 x9 x10 x11 x12 x13 (ix2 r q)
      = (∑ k, rowH2 x0 x1 x2 x3 x4 x5 x6 x7 x8 x9 x10 r k
          * Cert.Film.wn (fun a b => x11 (ix2 a b)) (fun a => x12 (ix1 a)) q k) + x13 (ix1 q) := by
  rw [val_main_v76_apply, val_main_v73_apply, val_main_v75_apply, val_main_v74_apply]
  have eb : idx_main_v74 (idx_main_v75 (ix2 r q)) = ix1 q := funext fun a => by
    match a with | ⟨0, _⟩ => rfl
  have es : (∑ k : Fin 256, val_main_v66 (F := Ideal) x0 x1 x2 x3 x4 x5 x6 x7 x8 x9 x10 (lidx_main_v73 (ix2 r q) k)
        * val_main_v72 (F := Ideal) x11 x12 (ridx_main_v73 (ix2 r q) k))
      = ∑ k, rowH2 x0 x1 x2 x3 x4 x5 x6 x7 x8 x9 x10 r k
          * Cert.Film.wn (fun a b => x11 (ix2 a b)) (fun a => x12 (ix1 a)) q k := by
    refine Finset.sum_congr rfl fun k _ => ?_
    have el : lidx_main_v73 (ix2 r q) k = ix2 r k := funext fun a => by
      match a with | ⟨0, _⟩ => rfl | ⟨1, _⟩ => rfl
    have er : ridx_main_v73 (ix2 r q) k = ix2 k q := funext fun a => by
      match a with | ⟨0, _⟩ => rfl | ⟨1, _⟩ => rfl
    rw [el, er, v66_at x0 x1 x2 x3 x4 x5 x6 x7 x8 x9 x10 hids, ref_w3T]
  rw [eb, es]
  rfl

end Layers

/-- The reference's result is the one-row network, in the arrangement that divides by the square root and reads the
    table row at its index, on every row. -/
theorem ref_result (x0 : S200000x256.Idx → EReal) (x1 : S256x256.Idx → EReal) (x2 : S200000.Idx → BitVec 32)
    (x3 : S512x256.Idx → EReal) (x4 x5 : S512.Idx → EReal) (x6 : S256x256.Idx → EReal) (x7 : S256.Idx → EReal)
    (x8 : S256x256.Idx → EReal) (x9 x10 : S256.Idx → EReal) (x11 : S512x256.Idx → EReal) (x12 x13 : S512.Idx → EReal)
    (hids : ∀ i, 0 ≤ (x2 i).toInt ∧ (x2 i).toInt < 256) :
    val_main_v76 (F := Ideal) x0 x1 x2 x3 x4 x5 x6 x7 x8 x9 x10 x11 x12 x13
      = Cert.Film.netOutR x0 x1 x2 x3 x4 x5 x6 x7 x8 x9 x10 x11 x12 x13 := by
  funext i
  obtain ⟨r, q, rfl⟩ : ∃ (r : Fin 200000) (q : Fin 512), i = ix2 r q := ⟨i 0, i 1, eq_ix2 i⟩
  rw [v76_at x0 x1 x2 x3 x4 x5 x6 x7 x8 x9 x10 x11 x12 x13 hids]
  rfl

end Cert.ReferenceIdeal.RefValue

end
-- ==== Proof.lean ====
/- The certificate of the FiLM row kernel against its jnp reference.

   Both programs compute, for each of the 200000 rows: a linear layer, a normalisation over the 256 columns, a
   modulation by the pair (scale, shift) of the row's graph picked from a 256-row table, a rectifier, and two more
   linear layers with bias, the first rectified; all weights are weight-normalised on the host, identically in
   both. The kernel does this in 49 row blocks of 4096, the last overhanging the arrays by 704 rows; it normalises
   by the reciprocal square root and picks the table row by indicator sums taken over the table and over the table
   minus itself; the reference divides by the square root and reads the indexed row.

   The frames: the word-level kernel's keeps only the argument arrays (what the body leaves in the output block is
   not named there: a fetched block cut at the array's end has a tail nothing names); the idealized kernel's has the
   output block named, stated on the rows inside the array, which is sound because over the extended reals every
   operation of the body acts row by row; the reference's is its run with the result dropped.
   The idealization's one rewrite (a narrowing to bf16 and back read as the identity) is the rule's own statement.
   The algebraic claim: the kernel's result array is, row by row, the one-row network in its first arrangement of the
   argument arrays, the reference's the second arrangement; the two agree when every index word names a table row and
   the conditioning inputs are real, which is what the precondition says. -/
import proofs.«421625_j75952201663101_2_alg».proof.Defs
import proofs.«421625_j75952201663101_2_alg».proof.Proof.Gen.Kernel
import proofs.«421625_j75952201663101_2_alg».proof.Proof.Gen.KernelIdeal
import proofs.«421625_j75952201663101_2_alg».proof.Proof.Gen.ReferenceIdeal
import proofs.«421625_j75952201663101_2_alg».proof.Proof.Gen.Pre_finite_inputs
import proofs.«421625_j75952201663101_2_alg».proof.Proof.Gen.ReferenceIdeal.Run
import proofs.«421625_j75952201663101_2_alg».proof.Proof.Gen.ReferenceIdeal.Read
import proofs.«421625_j75952201663101_2_alg».proof.Proof.Spec
import proofs.«421625_j75952201663101_2_alg».proof.Proof.PreFacts
import proofs.«421625_j75952201663101_2_alg».proof.Proof.BodyK
import proofs.«421625_j75952201663101_2_alg».proof.Proof.KIValue
import proofs.«421625_j75952201663101_2_alg».proof.Proof.KHost
import proofs.«421625_j75952201663101_2_alg».proof.Proof.Bridge
import proofs.«421625_j75952201663101_2_alg».proof.Proof.RefRow
import Idealize.ShloMosaic.Adequacy
import Idealize.ShloMosaic.Init

noncomputable section

namespace Cert.Proof.FilmClaims

open Idealize.ShloMosaic Idealize.ShloMosaic.TcCoe Idealize.SL.Sem Idealize.ShloMosaic.ValueIdx

theorem frame_ki : Cert.frame_KernelIdeal := fun m ρ _ => Cert.KernelIdeal.Hand.frame_ki m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: narrowing to bf16 and widening back is the identity over the extended reals. -/
theorem preserves : Cert.preserves_Kernel_KernelIdeal := IdealRules.truncf_extf.statement _ .f32 .bf16

/-- The kernel's result as a function of the ARGUMENT arrays: the arrays its windows stage are the host's
    weight-normalised matrices, table and reshaped index column of the arguments. -/
theorem Gk_eq (m : (ℓ : Loc Cert.KernelIdeal.nD Cert.KernelIdeal.τ Cert.KernelIdeal.sig) → Buf (Elt Ideal) ℓ) (c : Dev Cert.KernelIdeal.nD) :
    Cert.KernelIdeal.Hand.Gk m c = Cert.Film.netOutK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  funext i
  exact Cert.KernelIdeal.Hand.rowK_V_eq m c i

theorem algebraic : Cert.algebraic_KernelIdeal_ReferenceIdeal := by
  intro m ρ m' ρ' hpre hagree
  refine ⟨fun c => Cert.Film.netOutR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩) (Cert.KernelIdeal.Hand.run_value m ρ)
    obtain ⟨h1, h3, h4, h5, hid⟩ := Cert.Film.PreFacts.of_pre _ _ _ _ _ _ _ _ _ _ _ _ _ _ (hpre c)
    rw [Gk_eq]
    exact Cert.Film.netOutK_eq_netOutR _ _ _ _ _ _ _ _ _ _ _ _ _ _ hid h1 h3 h4 h5
  · refine (θ_run Cert.ReferenceIdeal.defs _ _).mono (fun r h c => ⟨(h c).1.trans ?_, (h c).2⟩) (Cert.ReferenceIdeal.Value.run (F := Ideal) m' ρ')
    obtain ⟨h1, h3, h4, h5, hid⟩ := Cert.Film.PreFacts.of_pre _ _ _ _ _ _ _ _ _ _ _ _ _ _ (hpre c)
    rw [Cert.ReferenceIdeal.Read.val_main_v76_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact Cert.ReferenceIdeal.RefValue.ref_result _ _ _ _ _ _ _ _ _ _ _ _ _ _ hid

end Cert.Proof.FilmClaims

namespace Cert.Proof

theorem claim : Cert.Claim := ⟨Cert.Kernel.Gen.facts, Cert.KernelIdeal.Gen.facts, Cert.ReferenceIdeal.Gen.facts, Cert.Pre_finite_inputs.Gen.facts,
  FilmClaims.frame_k, FilmClaims.frame_ki, FilmClaims.frame_ri, FilmClaims.preserves, FilmClaims.algebraic⟩

end Cert.Proof

end
